-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x300x80 : Shape := ⟨3, ![512, 300, 80]⟩
abbrev S512x300x4 : Shape := ⟨3, ![512, 300, 4]⟩
abbrev S512x200 : Shape := ⟨2, ![512, 200]⟩
abbrev S512x200x4 : Shape := ⟨3, ![512, 200, 4]⟩
abbrev S_ : Shape := ⟨0, ![]⟩

class Facts : Prop where
  bcast_S_S512x300x80 : S_.BroadcastsInDim S512x300x80 (![] : Fin 0 → Fin S512x300x80.rank)
  reducesTo_S512x300x80_S_d0_1_2 : S512x300x80.ReducesTo [0, 1, 2] S_
  h_S_ : 0 < S_.numel
  bcast_S_S512x300x4 : S_.BroadcastsInDim S512x300x4 (![] : Fin 0 → Fin S512x300x4.rank)
  reducesTo_S512x300x4_S_d0_1_2 : S512x300x4.ReducesTo [0, 1, 2] S_
  bcast_S_S512x200x4 : S_.BroadcastsInDim S512x200x4 (![] : Fin 0 → Fin S512x200x4.rank)
  reducesTo_S512x200x4_S_d0_1_2 : S512x200x4.ReducesTo [0, 1, 2] S_
  bcast_S_S512x200 : S_.BroadcastsInDim S512x200 (![] : Fin 0 → Fin S512x200.rank)
  reducesTo_S512x200_S_d0_1 : S512x200.ReducesTo [0, 1] S_

variable [Facts]

def fn_part1 {F : FTy → Type} [FloatOps F] (main_arg2 : IVec S512x200 32) (main_v13 : IVec S_ 1) (main_v15 : IVec S512x200 1) (main_c_5 : IVec S_ 32) : IVec S_ 1 :=
  let main_v16 : IVec S512x200 32 := broadcastInDim S512x200 ![] bcast_S_S512x200 main_c_5
  let main_v17 : IVec S512x200 1 := cmpi .slt main_arg2 main_v16
  let main_v18 : IVec S512x200 1 := andi main_v15 main_v17
  let main_c_6 : IVec S_ 1 := constantI S_ 1 1#1
  let main_v19 : IVec S_ 1 := (fun x v => Host.reduce IntOp.andi x v reducesTo_S512x200_S_d0_1 h_S_) main_v18 main_c_6
  let main_v20 : IVec S_ 1 := andi main_v13 main_v19
  main_v20

def fn {F : FTy → Type} [FloatOps F] (main_arg0 : FVec F S512x300x80 .f32) (main_arg1 : FVec F S512x300x4 .f32) (main_arg2 : IVec S512x200 32) (main_arg3 : FVec F S512x200x4 .f32) : IVec S_ 1 :=
  let main_v0 : FVec F S512x300x80 .f32 := Host.absf main_arg0
  let main_cst : FVec F S_ .f32 := constant S_ .f32 0x7F800000#32
  let main_v1 : FVec F S512x300x80 .f32 := broadcastInDim S512x300x80 ![] bcast_S_S512x300x80 main_cst
  let main_v2 : IVec S512x300x80 1 := cmpf .olt main_v0 main_v1
  let main_c : IVec S_ 1 := constantI S_ 1 1#1
  let main_v3 : IVec S_ 1 := (fun x v => Host.reduce IntOp.andi x v reducesTo_S512x300x80_S_d0_1_2 h_S_) main_v2 main_c
  let main_v4 : FVec F S512x300x4 .f32 := Host.absf main_arg1
  let main_cst_0 : FVec F S_ .f32 := constant S_ .f32 0x7F800000#32
  let main_v5 : FVec F S512x300x4 .f32 := broadcastInDim S512x300x4 ![] bcast_S_S512x300x4 main_cst_0
  let main_v6 : IVec S512x300x4 1 := cmpf .olt main_v4 main_v5
  let main_c_1 : IVec S_ 1 := constantI S_ 1 1#1
  let main_v7 : IVec S_ 1 := (fun x v => Host.reduce IntOp.andi x v reducesTo_S512x300x4_S_d0_1_2 h_S_) main_v6 main_c_1
  let main_v8 : IVec S_ 1 := andi main_v3 main_v7
  let main_v9 : FVec F S512x200x4 .f32 := Host.absf main_arg3
  let main_cst_2 : FVec F S_ .f32 := constant S_ .f32 0x7F800000#32
  let main_v10 : FVec F S512x200x4 .f32 := broadcastInDim S512x200x4 ![] bcast_S_S512x200x4 main_cst_2
  let main_v11 : IVec S512x200x4 1 := cmpf .olt main_v9 main_v10
  let main_c_3 : IVec S_ 1 := constantI S_ 1 1#1
  let main_v12 : IVec S_ 1 := (fun x v => Host.reduce IntOp.andi x v reducesTo_S512x200x4_S_d0_1_2 h_S_) main_v11 main_c_3
  let main_v13 : IVec S_ 1 := andi main_v8 main_v12
  let main_c_4 : IVec S_ 32 := constantI S_ 32 0#32
  let main_v14 : IVec S512x200 32 := broadcastInDim S512x200 ![] bcast_S_S512x200 main_c_4
  let main_v15 : IVec S512x200 1 := cmpi .sge main_arg2 main_v14
  let main_c_5 : IVec S_ 32 := constantI S_ 32 80#32
  fn_part1 (F := F) main_arg2 main_v13 main_v15 main_c_5
-- ==== Kernel.lean ====
abbrev S512x300x80 : Shape := ⟨3, ![512, 300, 80]⟩
abbrev S512x300x4 : Shape := ⟨3, ![512, 300, 4]⟩
abbrev S512x200 : Shape := ⟨2, ![512, 200]⟩
abbrev S512x200x4 : Shape := ⟨3, ![512, 200, 4]⟩
abbrev S512x1x200 : Shape := ⟨3, ![512, 1, 200]⟩
abbrev S512x4x200 : Shape := ⟨3, ![512, 4, 200]⟩
abbrev S512x300x200 : Shape := ⟨3, ![512, 300, 200]⟩
abbrev S8x300x80 : Shape := ⟨3, ![8, 300, 80]⟩
abbrev S8x300x4 : Shape := ⟨3, ![8, 300, 4]⟩
abbrev S8x1x200 : Shape := ⟨3, ![8, 1, 200]⟩
abbrev S8x4x200 : Shape := ⟨3, ![8, 4, 200]⟩
abbrev S8x300x200 : Shape := ⟨3, ![8, 300, 200]⟩
abbrev S8x300 : Shape := ⟨2, ![8, 300]⟩
abbrev S8x300x1 : Shape := ⟨3, ![8, 300, 1]⟩
abbrev S8x80x200 : Shape := ⟨3, ![8, 80, 200]⟩

abbrev nBuf : Space → Nat
  | .hbm => 7
  | .vmem => 10
  | .smem => 0
  | _ => 0

abbrev bufTy : (tb : Table) → Fin (tcTables nBuf tb) → BufTy
  | .hbm, ⟨0, _⟩ => ⟨S512x300x80, .f32⟩
  | .hbm, ⟨1, _⟩ => ⟨S512x300x4, .f32⟩
  | .hbm, ⟨2, _⟩ => ⟨S512x200, .i32⟩
  | .hbm, ⟨3, _⟩ => ⟨S512x200x4, .f32⟩
  | .hbm, ⟨4, _⟩ => ⟨S512x1x200, .i32⟩
  | .hbm, ⟨5, _⟩ => ⟨S512x4x200, .f32⟩
  | .hbm, ⟨6, _⟩ => ⟨S512x300x200, .f32⟩
  | .local _ .vmem, ⟨0, _⟩ => ⟨S8x300x80, .f32⟩
  | .local _ .vmem, ⟨1, _⟩ => ⟨S8x300x80, .f32⟩
  | .local _ .vmem, ⟨2, _⟩ => ⟨S8x300x4, .f32⟩
  | .local _ .vmem, ⟨3, _⟩ => ⟨S8x300x4, .f32⟩
  | .local _ .vmem, ⟨4, _⟩ => ⟨S8x1x200, .i32⟩
  | .local _ .vmem, ⟨5, _⟩ => ⟨S8x1x200, .i32⟩
  | .local _ .vmem, ⟨6, _⟩ => ⟨S8x4x200, .f32⟩
  | .local _ .vmem, ⟨7, _⟩ => ⟨S8x4x200, .f32⟩
  | .local _ .vmem, ⟨8, _⟩ => ⟨S8x300x200, .f32⟩
  | .local _ .vmem, ⟨9, _⟩ => ⟨S8x300x200, .f32⟩
  | _, _ => ⟨S512x300x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x300x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x300x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x200 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x4x200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x300x200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S512x200_S512x1x200 : S512x200.ShapeCasts S512x1x200
  transposes_S512x200x4_S512x4x200_0_2_1 : S512x200x4.Transposes [0, 2, 1] S512x4x200
  inb_S8x300x80_S8x300x80_0_0_0 : ∀ a, (![0, 0, 0] : Fin 3 → Nat) a + S8x300x80.size a ≤ S8x300x80.size a
  h_S8x300x80 : 0 < S8x300x80.numel
  inb_S8x300x4_S8x300x4_0_0_0 : ∀ a, (![0, 0, 0] : Fin 3 → Nat) a + S8x300x4.size a ≤ S8x300x4.size a
  h_S8x300x4 : 0 < S8x300x4.numel
  inb_S8x1x200_S8x1x200_0_0_0 : ∀ a, (![0, 0, 0] : Fin 3 → Nat) a + S8x1x200.size a ≤ S8x1x200.size a
  h_S8x1x200 : 0 < S8x1x200.numel
  shapeCasts_S8x1x200_S8x1x200 : S8x1x200.ShapeCasts S8x1x200
  inb_S8x4x200_S8x4x200_0_0_0 : ∀ a, (![0, 0, 0] : Fin 3 → Nat) a + S8x4x200.size a ≤ S8x4x200.size a
  h_S8x4x200 : 0 < S8x4x200.numel
  shapeCasts_S8x4x200_S8x4x200 : S8x4x200.ShapeCasts S8x4x200
  reduces_S8x300x80_S8x300 : S8x300x80.Reduces [2] S8x300
  shapeCasts_S8x300_S8x300x1 : S8x300.ShapeCasts S8x300x1
  broadcasts_S8x300x1_S8x300x80 : S8x300x1.Broadcasts S8x300x80
  iota_S8x80x200_d1_w32 : S8x80x200.Iotas .tc 32 [1]
  broadcasts_S8x1x200_S8x80x200 : S8x1x200.Broadcasts S8x80x200
  natLt_1_32 : 1 < 32
  bitsLt_bf16_f32 : FTy.bits .bf16 < FTy.bits .f32
  slices_S8x300x4_o0_0_0_S8x300x1 : S8x300x4.Slices ![0, 0, 0] S8x300x1
  slices_S8x300x4_o0_0_1_S8x300x1 : S8x300x4.Slices ![0, 0, 1] S8x300x1
  slices_S8x300x4_o0_0_2_S8x300x1 : S8x300x4.Slices ![0, 0, 2] S8x300x1
  slices_S8x300x4_o0_0_3_S8x300x1 : S8x300x4.Slices ![0, 0, 3] S8x300x1
  slices_S8x4x200_o0_0_0_S8x1x200 : S8x4x200.Slices ![0, 0, 0] S8x1x200
  slices_S8x4x200_o0_1_0_S8x1x200 : S8x4x200.Slices ![0, 1, 0] S8x1x200
  slices_S8x4x200_o0_2_0_S8x1x200 : S8x4x200.Slices ![0, 2, 0] S8x1x200
  slices_S8x4x200_o0_3_0_S8x1x200 : S8x4x200.Slices ![0, 3, 0] S8x1x200
  broadcasts_S8x300x1_S8x300x200 : S8x300x1.Broadcasts S8x300x200
  broadcasts_S8x1x200_S8x300x200 : S8x1x200.Broadcasts S8x300x200
  inb_S8x300x200_S8x300x200_0_0_0 : ∀ a, (![0, 0, 0] : Fin 3 → Nat) a + S8x300x200.size a ≤ S8x300x200.size a
  h_S8x300x200 : 0 < S8x300x200.numel
  dot_S8x300x80_S8x80x200_S8x300x200_2_1_1_2_0_0_wf : DotDims.WF S8x300x80 S8x80x200 S8x300x200 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x300x80.size a ≤ S512x300x80.size a
  hwx0_0 : ∀ i : grid0.Coords, EltTy.bits .f32 = 32 ∨ (Rect.block (s := S512x300x80) S8x300x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x300x4.size a ≤ S512x300x4.size a
  hwx0_1 : ∀ i : grid0.Coords, EltTy.bits .f32 = 32 ∨ (Rect.block (s := S512x300x4) S8x300x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1x200.size a ≤ S512x1x200.size a
  hwx0_2 : ∀ i : grid0.Coords, EltTy.bits .i32 = 32 ∨ (Rect.block (s := S512x1x200) S8x1x200.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x4x200.size a ≤ S512x4x200.size a
  hwx0_3 : ∀ i : grid0.Coords, EltTy.bits .f32 = 32 ∨ (Rect.block (s := S512x4x200) S8x4x200.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x300x200.size a ≤ S512x300x200.size a
  hwx0_4 : ∀ i : grid0.Coords, EltTy.bits .f32 = 32 ∨ (Rect.block (s := S512x300x200) S8x300x200.size (cc0_transform_4 i) (hinb0_4 i)).WholeWords (EltTy.packing .f32)

variable [Facts₀]

def dot_S8x300x80_S8x80x200_S8x300x200_2_1_1_2_0_0 : DotDims S8x300x80 S8x80x200 S8x300x200 where
  lhsContracting := [2]
  rhsContracting := [1]
  lhsNonContracting := [1]
  rhsNonContracting := [2]
  lhsBatch := [0]
  rhsBatch := [0]
  wf := dot_S8x300x80_S8x80x200_S8x300x200_2_1_1_2_0_0_wf

abbrev win0_0 : Pipeline.Window sig grid0 :=
  Pipeline.Window.ofSpec (Memref.whole main_arg0) S8x300x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x300x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x1x200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x4x200.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S8x300x200.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S512x300x80 : Shape := ⟨3, ![512, 300, 80]⟩
abbrev S512x300x4 : Shape := ⟨3, ![512, 300, 4]⟩
abbrev S512x200 : Shape := ⟨2, ![512, 200]⟩
abbrev S512x200x4 : Shape := ⟨3, ![512, 200, 4]⟩
abbrev S_ : Shape := ⟨0, ![]⟩
abbrev S512x300 : Shape := ⟨2, ![512, 300]⟩
abbrev S512x300x1 : Shape := ⟨3, ![512, 300, 1]⟩
abbrev S512x1x200 : Shape := ⟨3, ![512, 1, 200]⟩
abbrev S512x200x1 : Shape := ⟨3, ![512, 200, 1]⟩
abbrev S1 : Shape := ⟨1, ![1]⟩
abbrev S1x1x1 : Shape := ⟨3, ![1, 1, 1]⟩
abbrev S512x300x200 : Shape := ⟨3, ![512, 300, 200]⟩
abbrev S512x300x1x4 : Shape := ⟨4, ![512, 300, 1, 4]⟩
abbrev S512x1x200x4 : Shape := ⟨4, ![512, 1, 200, 4]⟩
abbrev S512x300x200x4 : Shape := ⟨4, ![512, 300, 200, 4]⟩
abbrev S512x300x1x1 : Shape := ⟨4, ![512, 300, 1, 1]⟩
abbrev S512x1x200x1 : Shape := ⟨4, ![512, 1, 200, 1]⟩

abbrev nBuf : Space → Nat
  | .hbm => 247
  | .vmem => 0
  | .smem => 0
  | _ => 0

abbrev hbmTy0_0 (i : Nat) : BufTy := match i % 128 with
  | 0 => ⟨S512x300x80, .f32⟩
  | 1 => ⟨S512x300x4, .f32⟩
  | 2 => ⟨S512x200, .i32⟩
  | 3 => ⟨S512x200x4, .f32⟩
  | 4 => ⟨S_, .f32⟩
  | 5 => ⟨S512x300, .f32⟩
  | 6 => ⟨S_, .f32⟩
  | 7 => ⟨S512x300, .f32⟩
  | 8 => ⟨S512x300, .f32⟩
  | 9 => ⟨S512x300x1, .f32⟩
  | 10 => ⟨S512x300x80, .f32⟩
  | 11 => ⟨S512x300x80, .f32⟩
  | 12 => ⟨S512x300x80, .f32⟩
  | 13 => ⟨S_, .f32⟩
  | 14 => ⟨S512x300, .f32⟩
  | 15 => ⟨S512x300x1, .f32⟩
  | 16 => ⟨S512x300x80, .f32⟩
  | 17 => ⟨S512x300x80, .f32⟩
  | 18 => ⟨S512x1x200, .i32⟩
  | 19 => ⟨S_, .i32⟩
  | 20 => ⟨S512x1x200, .i32⟩
  | 21 => ⟨S512x1x200, .i1⟩
  | 22 => ⟨S_, .i32⟩
  | 23 => ⟨S512x1x200, .i32⟩
  | 24 => ⟨S512x1x200, .i32⟩
  | 25 => ⟨S512x1x200, .i32⟩
  | 26 => ⟨S512x200x1, .i32⟩
  | 27 => ⟨S1, .i32⟩
  | 28 => ⟨S_, .i32⟩
  | 29 => ⟨S512x200x1, .i32⟩
  | 30 => ⟨S512x200x1, .i1⟩
  | 31 => ⟨S1x1x1, .i32⟩
  | 32 => ⟨S512x200x1, .i32⟩
  | 33 => ⟨S512x200x1, .i1⟩
  | 34 => ⟨S512x200x1, .i1⟩
  | 35 => ⟨S_, .i1⟩
  | 36 => ⟨S512x200, .i1⟩
  | 37 => ⟨S512x300x200, .f32⟩
  | 38 => ⟨S512x300x200, .i1⟩
  | 39 => ⟨S_, .f32⟩
  | 40 => ⟨S512x300x200, .f32⟩
  | 41 => ⟨S512x300x200, .f32⟩
  | 42 => ⟨S512x300x200, .f32⟩
  | 43 => ⟨S512x300x1x4, .f32⟩
  | 44 => ⟨S512x1x200x4, .f32⟩
  | 45 => ⟨S512x300x200x4, .f32⟩
  | 46 => ⟨S512x300x200x4, .f32⟩
  | 47 => ⟨S512x300x200x4, .f32⟩
  | 48 => ⟨S512x300x200x4, .f32⟩
  | 49 => ⟨S_, .f32⟩
  | 50 => ⟨S512x300x200, .f32⟩
  | 51 => ⟨S512x300x1, .f32⟩
  | 52 => ⟨S512x300, .f32⟩
  | 53 => ⟨S512x300x1, .f32⟩
  | 54 => ⟨S512x300, .f32⟩
  | 55 => ⟨S512x300x1, .f32⟩
  | 56 => ⟨S512x300, .f32⟩
  | 57 => ⟨S512x300x1, .f32⟩
  | 58 => ⟨S512x300, .f32⟩
  | 59 => ⟨S_, .f32⟩
  | 60 => ⟨S512x300, .f32⟩
  | 61 => ⟨S512x300, .f32⟩
  | 62 => ⟨S512x300, .f32⟩
  | 63 => ⟨S_, .f32⟩
  | 64 => ⟨S512x300, .f32⟩
  | 65 => ⟨S512x300, .f32⟩
  | 66 => ⟨S512x300, .f32⟩
  | 67 => ⟨S_, .f32⟩
  | 68 => ⟨S512x300, .f32⟩
  | 69 => ⟨S512x300, .f32⟩
  | 70 => ⟨S512x300, .f32⟩
  | 71 => ⟨S_, .f32⟩
  | 72 => ⟨S512x300, .f32⟩
  | 73 => ⟨S512x300, .f32⟩
  | 74 => ⟨S512x300, .f32⟩
  | 75 => ⟨S512x300x1, .f32⟩
  | 76 => ⟨S512x300x1, .f32⟩
  | 77 => ⟨S512x300x1, .f32⟩
  | 78 => ⟨S512x300x1, .f32⟩
  | 79 => ⟨S512x300x4, .f32⟩
  | 80 => ⟨S512x300x1x4, .f32⟩
  | 81 => ⟨S512x200x1, .f32⟩
  | 82 => ⟨S512x200, .f32⟩
  | 83 => ⟨S512x200x1, .f32⟩
  | 84 => ⟨S512x200, .f32⟩
  | 85 => ⟨S512x200x1, .f32⟩
  | 86 => ⟨S512x200, .f32⟩
  | 87 => ⟨S512x200x1, .f32⟩
  | 88 => ⟨S512x200, .f32⟩
  | 89 => ⟨S_, .f32⟩
  | 90 => ⟨S512x200, .f32⟩
  | 91 => ⟨S512x200, .f32⟩
  | 92 => ⟨S512x200, .f32⟩
  | 93 => ⟨S_, .f32⟩
  | 94 => ⟨S512x200, .f32⟩
  | 95 => ⟨S512x200, .f32⟩
  | 96 => ⟨S512x200, .f32⟩
  | 97 => ⟨S_, .f32⟩
  | 98 => ⟨S512x200, .f32⟩
  | 99 => ⟨S512x200, .f32⟩
  | 100 => ⟨S512x200, .f32⟩
  | 101 => ⟨S_, .f32⟩
  | 102 => ⟨S512x200, .f32⟩
  | 103 => ⟨S512x200, .f32⟩
  | 104 => ⟨S512x200, .f32⟩
  | 105 => ⟨S512x200x1, .f32⟩
  | 106 => ⟨S512x200x1, .f32⟩
  | 107 => ⟨S512x200x1, .f32⟩
  | 108 => ⟨S512x200x1, .f32⟩
  | 109 => ⟨S512x200x4, .f32⟩
  | 110 => ⟨S512x1x200x4, .f32⟩
  | 111 => ⟨S512x300x1x1, .f32⟩
  | 112 => ⟨S512x300x1, .f32⟩
  | 113 => ⟨S512x1x200x1, .f32⟩
  | 114 => ⟨S512x1x200, .f32⟩
  | 115 => ⟨S512x300x200, .f32⟩
  | 116 => ⟨S512x300x200, .f32⟩
  | 117 => ⟨S512x300x200, .f32⟩
  | 118 => ⟨S512x300x1x1, .f32⟩
  | 119 => ⟨S512x300x1, .f32⟩
  | 120 => ⟨S512x1x200x1, .f32⟩
  | 121 => ⟨S512x1x200, .f32⟩
  | 122 => ⟨S512x300x200, .f32⟩
  | 123 => ⟨S512x300x200, .f32⟩
  | 124 => ⟨S512x300x200, .f32⟩
  | 125 => ⟨S512x300x200, .f32⟩
  | 126 => ⟨S_, .f32⟩
  | 127 => ⟨S_, .f32⟩
  | _ => ⟨S512x300x80, .f32⟩

abbrev hbmTy0_1 (i : Nat) : BufTy := match i % 128 with
  | 0 => ⟨S512x300x200, .f32⟩
  | 1 => ⟨S512x300x200, .f32⟩
  | 2 => ⟨S512x300x1x1, .f32⟩
  | 3 => ⟨S512x300x1, .f32⟩
  | 4 => ⟨S512x1x200x1, .f32⟩
  | 5 => ⟨S512x1x200, .f32⟩
  | 6 => ⟨S512x300x200, .f32⟩
  | 7 => ⟨S512x300x200, .f32⟩
  | 8 => ⟨S512x300x200, .f32⟩
  | 9 => ⟨S512x300x1x1, .f32⟩
  | 10 => ⟨S512x300x1, .f32⟩
  | 11 => ⟨S512x1x200x1, .f32⟩
  | 12 => ⟨S512x1x200, .f32⟩
  | 13 => ⟨S512x300x200, .f32⟩
  | 14 => ⟨S512x300x200, .f32⟩
  | 15 => ⟨S512x300x200, .f32⟩
  | 16 => ⟨S512x300x200, .f32⟩
  | 17 => ⟨S_, .f32⟩
  | 18 => ⟨S_, .f32⟩
  | 19 => ⟨S512x300x200, .f32⟩
  | 20 => ⟨S512x300x200, .f32⟩
  | 21 => ⟨S512x300x200, .f32⟩
  | 22 => ⟨S512x300x1x1, .f32⟩
  | 23 => ⟨S512x300x1, .f32⟩
  | 24 => ⟨S512x300x1x1, .f32⟩
  | 25 => ⟨S512x300x1, .f32⟩
  | 26 => ⟨S512x300x1, .f32⟩
  | 27 => ⟨S_, .f32⟩
  | 28 => ⟨S_, .f32⟩
  | 29 => ⟨S512x300x1, .f32⟩
  | 30 => ⟨S512x300x1, .f32⟩
  | 31 => ⟨S512x300x1x1, .f32⟩
  | 32 => ⟨S512x300x1, .f32⟩
  | 33 => ⟨S512x300x1x1, .f32⟩
  | 34 => ⟨S512x300x1, .f32⟩
  | 35 => ⟨S512x300x1, .f32⟩
  | 36 => ⟨S_, .f32⟩
  | 37 => ⟨S_, .f32⟩
  | 38 => ⟨S512x300x1, .f32⟩
  | 39 => ⟨S512x300x1, .f32⟩
  | 40 => ⟨S512x300x1, .f32⟩
  | 41 => ⟨S512x1x200x1, .f32⟩
  | 42 => ⟨S512x1x200, .f32⟩
  | 43 => ⟨S512x1x200x1, .f32⟩
  | 44 => ⟨S512x1x200, .f32⟩
  | 45 => ⟨S512x1x200, .f32⟩
  | 46 => ⟨S_, .f32⟩
  | 47 => ⟨S_, .f32⟩
  | 48 => ⟨S512x1x200, .f32⟩
  | 49 => ⟨S512x1x200, .f32⟩
  | 50 => ⟨S512x1x200x1, .f32⟩
  | 51 => ⟨S512x1x200, .f32⟩
  | 52 => ⟨S512x1x200x1, .f32⟩
  | 53 => ⟨S512x1x200, .f32⟩
  | 54 => ⟨S512x1x200, .f32⟩
  | 55 => ⟨S_, .f32⟩
  | 56 => ⟨S_, .f32⟩
  | 57 => ⟨S512x1x200, .f32⟩
  | 58 => ⟨S512x1x200, .f32⟩
  | 59 => ⟨S512x1x200, .f32⟩
  | 60 => ⟨S512x300x200, .f32⟩
  | 61 => ⟨S512x300x200, .f32⟩
  | 62 => ⟨S512x300x200, .f32⟩
  | 63 => ⟨S512x300x200, .f32⟩
  | 64 => ⟨S512x300x200, .f32⟩
  | 65 => ⟨S512x300x1x1, .f32⟩
  | 66 => ⟨S512x300x1, .f32⟩
  | 67 => ⟨S512x1x200x1, .f32⟩
  | 68 => ⟨S512x1x200, .f32⟩
  | 69 => ⟨S512x300x200, .f32⟩
  | 70 => ⟨S512x300x200, .f32⟩
  | 71 => ⟨S512x300x200, .f32⟩
  | 72 => ⟨S512x300x1x1, .f32⟩
  | 73 => ⟨S512x300x1, .f32⟩
  | 74 => ⟨S512x1x200x1, .f32⟩
  | 75 => ⟨S512x1x200, .f32⟩
  | 76 => ⟨S512x300x200, .f32⟩
  | 77 => ⟨S512x300x200, .f32⟩
  | 78 => ⟨S512x300x200, .f32⟩
  | 79 => ⟨S512x300x200, .f32⟩
  | 80 => ⟨S_, .f32⟩
  | 81 => ⟨S_, .f32⟩
  | 82 => ⟨S512x300x200, .f32⟩
  | 83 => ⟨S512x300x200, .f32⟩
  | 84 => ⟨S512x300x1x1, .f32⟩
  | 85 => ⟨S512x300x1, .f32⟩
  | 86 => ⟨S512x1x200x1, .f32⟩
  | 87 => ⟨S512x1x200, .f32⟩
  | 88 => ⟨S512x300x200, .f32⟩
  | 89 => ⟨S512x300x200, .f32⟩
  | 90 => ⟨S512x300x200, .f32⟩
  | 91 => ⟨S512x300x1x1, .f32⟩
  | 92 => ⟨S512x300x1, .f32⟩
  | 93 => ⟨S512x1x200x1, .f32⟩
  | 94 => ⟨S512x1x200, .f32⟩
  | 95 => ⟨S512x300x200, .f32⟩
  | 96 => ⟨S512x300x200, .f32⟩
  | 97 => ⟨S512x300x200, .f32⟩
  | 98 => ⟨S512x300x200, .f32⟩
  | 99 => ⟨S_, .f32⟩
  | 100 => ⟨S_, .f32⟩
  | 101 => ⟨S512x300x200, .f32⟩
  | 102 => ⟨S512x300x200, .f32⟩
  | 103 => ⟨S512x300x200, .f32⟩
  | 104 => ⟨S512x300x200, .f32⟩
  | 105 => ⟨S512x300x200, .f32⟩
  | 106 => ⟨S512x300x200, .f32⟩
  | 107 => ⟨S512x300x200, .f32⟩
  | 108 => ⟨S_, .f32⟩
  | 109 => ⟨S512x300x200, .f32⟩
  | 110 => ⟨S512x300x200, .f32⟩
  | 111 => ⟨S_, .f32⟩
  | 112 => ⟨S512x300x200, .f32⟩
  | 113 => ⟨S512x300x200, .f32⟩
  | 114 => ⟨S512x300x200, .f32⟩
  | 115 => ⟨S_, .f32⟩
  | 116 => ⟨S512x300x200, .f32⟩
  | 117 => ⟨S512x300x200, .f32⟩
  | 118 => ⟨S512x300x200, .f32⟩
  | _ => ⟨S512x300x80, .f32⟩

abbrev hbmTy (i : Nat) : BufTy := match i / 128 with
  | 0 => hbmTy0_0 i
  | 1 => hbmTy0_1 i
  | _ => ⟨S512x300x80, .f32⟩

abbrev bufTy : (tb : Table) → Fin (tcTables nBuf tb) → BufTy
  | .hbm, ⟨i, _⟩ => hbmTy i
  | _, _ => ⟨S512x300x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_cst_2 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_3 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_4 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_5 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_6 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_7 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_8 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_9 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_10 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_11 : Ref sig .tc := ⟨.hbm, 126, rfl⟩
abbrev main_call1_v0 : Ref sig .tc := ⟨.hbm, 127, rfl⟩
abbrev main_call1_v1 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_12 : Ref sig .tc := ⟨.hbm, 145, rfl⟩
abbrev main_call2_v0 : Ref sig .tc := ⟨.hbm, 146, rfl⟩
abbrev main_call2_v1 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_13 : Ref sig .tc := ⟨.hbm, 155, rfl⟩
abbrev main_call3_v0 : Ref sig .tc := ⟨.hbm, 156, rfl⟩
abbrev main_call3_v1 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_cst_14 : Ref sig .tc := ⟨.hbm, 164, rfl⟩
abbrev main_call4_v0 : Ref sig .tc := ⟨.hbm, 165, rfl⟩
abbrev main_call4_v1 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_cst_15 : Ref sig .tc := ⟨.hbm, 174, rfl⟩
abbrev main_call5_v0 : Ref sig .tc := ⟨.hbm, 175, rfl⟩
abbrev main_call5_v1 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_cst_16 : Ref sig .tc := ⟨.hbm, 183, rfl⟩
abbrev main_call6_v0 : Ref sig .tc := ⟨.hbm, 184, rfl⟩
abbrev main_call6_v1 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_cst_17 : Ref sig .tc := ⟨.hbm, 208, rfl⟩
abbrev main_call7_v0 : Ref sig .tc := ⟨.hbm, 209, rfl⟩
abbrev main_call7_v1 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_cst_18 : Ref sig .tc := ⟨.hbm, 227, rfl⟩
abbrev main_call8_v0 : Ref sig .tc := ⟨.hbm, 228, rfl⟩
abbrev main_call8_v1 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_cst_19 : Ref sig .tc := ⟨.hbm, 236, rfl⟩
abbrev main_v174 : Ref sig .tc := ⟨.hbm, 237, rfl⟩
abbrev main_v175 : Ref sig .tc := ⟨.hbm, 238, rfl⟩
abbrev main_cst_20 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_cst_21 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩

abbrev nD : Nat := 1
abbrev τ : Topo := Topo.v7x

variable {F : FTy → Type} [FloatOps F]

class Facts₀ : Prop where
  reducesTo_S512x300x80_S512x300_d2 : S512x300x80.ReducesTo [2] S512x300
  h_S_ : 0 < S_.numel
  bcast_S_S512x300 : S_.BroadcastsInDim S512x300 (![] : Fin 0 → Fin S512x300.rank)
  bcast_S512x300_S512x300x1_0_1 : S512x300.BroadcastsInDim S512x300x1 (![0, 1] : Fin 2 → Fin S512x300x1.rank)
  bcast_S512x300x1_S512x300x80_0_1_2 : S512x300x1.BroadcastsInDim S512x300x80 (![0, 1, 2] : Fin 3 → Fin S512x300x80.rank)
  bcast_S512x200_S512x1x200_0_2 : S512x200.BroadcastsInDim S512x1x200 (![0, 2] : Fin 2 → Fin S512x1x200.rank)
  bcast_S_S512x1x200 : S_.BroadcastsInDim S512x1x200 (![] : Fin 0 → Fin S512x1x200.rank)
  shapeCasts_S512x1x200_S512x200x1 : S512x1x200.ShapeCasts S512x200x1
  bcast_S_S512x200x1 : S_.BroadcastsInDim S512x200x1 (![] : Fin 0 → Fin S512x200x1.rank)
  bcast_S1_S1x1x1_2 : S1.BroadcastsInDim S1x1x1 (![2] : Fin 1 → Fin S1x1x1.rank)
  bcast_S1x1x1_S512x200x1_0_1_2 : S1x1x1.BroadcastsInDim S512x200x1 (![0, 1, 2] : Fin 3 → Fin S512x200x1.rank)
  reducesTo_S512x200x1_S512x200_d2 : S512x200x1.ReducesTo [2] S512x200
  bcast_S512x200_S512x300x200_0_2 : S512x200.BroadcastsInDim S512x300x200 (![0, 2] : Fin 2 → Fin S512x300x200.rank)
  bcast_S_S512x300x200 : S_.BroadcastsInDim S512x300x200 (![] : Fin 0 → Fin S512x300x200.rank)
  bcast_S512x300x4_S512x300x1x4_0_1_3 : S512x300x4.BroadcastsInDim S512x300x1x4 (![0, 1, 3] : Fin 3 → Fin S512x300x1x4.rank)
  bcast_S512x200x4_S512x1x200x4_0_2_3 : S512x200x4.BroadcastsInDim S512x1x200x4 (![0, 2, 3] : Fin 3 → Fin S512x1x200x4.rank)
  bcast_S512x300x1x4_S512x300x200x4_0_1_2_3 : S512x300x1x4.BroadcastsInDim S512x300x200x4 (![0, 1, 2, 3] : Fin 4 → Fin S512x300x200x4.rank)
  bcast_S512x1x200x4_S512x300x200x4_0_1_2_3 : S512x1x200x4.BroadcastsInDim S512x300x200x4 (![0, 1, 2, 3] : Fin 4 → Fin S512x300x200x4.rank)
  reducesTo_S512x300x200x4_S512x300x200_d3 : S512x300x200x4.ReducesTo [3] S512x300x200
  slices_S512x300x4_S512x300x1_0_0_0 : S512x300x4.Slices ![0, 0, 0] S512x300x1
  shapeCasts_S512x300x1_S512x300 : S512x300x1.ShapeCasts S512x300
  slices_S512x300x4_S512x300x1_0_0_1 : S512x300x4.Slices ![0, 0, 1] S512x300x1
  slices_S512x300x4_S512x300x1_0_0_2 : S512x300x4.Slices ![0, 0, 2] S512x300x1
  slices_S512x300x4_S512x300x1_0_0_3 : S512x300x4.Slices ![0, 0, 3] S512x300x1
  concatenates_S512x300x1_S512x300x1_S512x300x1_S512x300x1_S512x300x4_d2 : Shape.Concatenates [S512x300x1, S512x300x1, S512x300x1, S512x300x1] S512x300x4 2
  slices_S512x200x4_S512x200x1_0_0_0 : S512x200x4.Slices ![0, 0, 0] S512x200x1
  shapeCasts_S512x200x1_S512x200 : S512x200x1.ShapeCasts S512x200
  slices_S512x200x4_S512x200x1_0_0_1 : S512x200x4.Slices ![0, 0, 1] S512x200x1
  slices_S512x200x4_S512x200x1_0_0_2 : S512x200x4.Slices ![0, 0, 2] S512x200x1
  slices_S512x200x4_S512x200x1_0_0_3 : S512x200x4.Slices ![0, 0, 3] S512x200x1
  bcast_S_S512x200 : S_.BroadcastsInDim S512x200 (![] : Fin 0 → Fin S512x200.rank)
  bcast_S512x200_S512x200x1_0_1 : S512x200.BroadcastsInDim S512x200x1 (![0, 1] : Fin 2 → Fin S512x200x1.rank)
  concatenates_S512x200x1_S512x200x1_S512x200x1_S512x200x1_S512x200x4_d2 : Shape.Concatenates [S512x200x1, S512x200x1, S512x200x1, S512x200x1] S512x200x4 2
  slices_S512x300x1x4_S512x300x1x1_0_0_0_2 : S512x300x1x4.Slices ![0, 0, 0, 2] S512x300x1x1
  shapeCasts_S512x300x1x1_S512x300x1 : S512x300x1x1.ShapeCasts S512x300x1
  slices_S512x1x200x4_S512x1x200x1_0_0_0_2 : S512x1x200x4.Slices ![0, 0, 0, 2] S512x1x200x1
  shapeCasts_S512x1x200x1_S512x1x200 : S512x1x200x1.ShapeCasts S512x1x200
  bcast_S512x300x1_S512x300x200_0_1_2 : S512x300x1.BroadcastsInDim S512x300x200 (![0, 1, 2] : Fin 3 → Fin S512x300x200.rank)
  bcast_S512x1x200_S512x300x200_0_1_2 : S512x1x200.BroadcastsInDim S512x300x200 (![0, 1, 2] : Fin 3 → Fin S512x300x200.rank)
  slices_S512x300x1x4_S512x300x1x1_0_0_0_0 : S512x300x1x4.Slices ![0, 0, 0, 0] S512x300x1x1
  slices_S512x1x200x4_S512x1x200x1_0_0_0_0 : S512x1x200x4.Slices ![0, 0, 0, 0] S512x1x200x1
  slices_S512x300x1x4_S512x300x1x1_0_0_0_3 : S512x300x1x4.Slices ![0, 0, 0, 3] S512x300x1x1
  slices_S512x1x200x4_S512x1x200x1_0_0_0_3 : S512x1x200x4.Slices ![0, 0, 0, 3] S512x1x200x1
  slices_S512x300x1x4_S512x300x1x1_0_0_0_1 : S512x300x1x4.Slices ![0, 0, 0, 1] S512x300x1x1
  slices_S512x1x200x4_S512x1x200x1_0_0_0_1 : S512x1x200x4.Slices ![0, 0, 0, 1] S512x1x200x1
  bcast_S_S512x300x1 : S_.BroadcastsInDim S512x300x1 (![] : Fin 0 → Fin S512x300x1.rank)
  gather_S512x300x80_S512x200x1_S512x300x200_1_2_0_0_2_2_13001_wf : GatherDims.WF S512x300x80 S512x200x1 S512x300x200 [1] [2] [0] [2] [0] 2 ![1, 300, 1]

variable [Facts₀]

def gather_S512x300x80_S512x200x1_S512x300x200_1_2_0_0_2_2_13001 : GatherDims S512x300x80 S512x200x1 S512x300x200 where
  offsetDims := [1]
  collapsedSliceDims := [2]
  operandBatchingDims := [0]
  startIndicesBatchingDims := [0]
  startIndexMap := [2]
  indexVectorDim := 2
  sliceSizes := ![1, 300, 1]
  wf := gather_S512x300x80_S512x200x1_S512x300x200_1_2_0_0_2_2_13001_wf

class Facts : Prop extends Facts₀ where

variable [Facts]
-- ==== Proof.CostSpec.lean ====
/-
  The matching cost of one (query, target) pair, as a function on the extended reals, and the cost array as one
  function of the four argument arrays, index by index.

  For a query with class scores `x : Fin 80 → EReal` and box `p = (cx, cy, w, h)`, and a target with label `l` and box
  `t`, the cost is `1 · (0 − P_l) + 5 · L1(p, t) + 2 · (0 − GIoU(p, t))`, where `P` is the softmax of `x` (shifted by
  the row's maximum), `L1` the sum of the four absolute coordinate differences, and `GIoU` the generalised
  intersection-over-union of the two boxes in corner form: `inter / union − (enc − union) / enc`.
  The class term is written as the contraction of `P` against the indicator column of `l`,
  `∑ c, P c · [c = l]`; when `0 ≤ l < 80` it is the single entry `P l` (`classPick_eq`), since every other term is
  a product with `0`, which is `0` on the extended reals whatever the other factor.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.CostSpec

open Idealize.ShloMosaic Idealize.ShloMosaic.ValueIdx

/-! ## The literals, as the extended reals their words denote -/

def cHalf : EReal := Ideal.ofBits .f32 0x3F000000#32
def cZero : EReal := Ideal.ofBits .f32 0x00000000#32
def cOne : EReal := Ideal.ofBits .f32 0x3F800000#32
def cFive : EReal := Ideal.ofBits .f32 0x40A00000#32
def cTwo : EReal := Ideal.ofBits .f32 0x40000000#32
def cNegInf : EReal := Ideal.ofBits .f32 0xFF800000#32

/-! ## One pair -/

/-- `|a|` on the extended reals. -/
def absE (a : EReal) : EReal := max a (-a)
/-- A length clipped below at zero. -/
def clip0 (a : EReal) : EReal := max a cZero
/-- The low and the high corner of an interval given by its centre and width. -/
def lo (c w : EReal) : EReal := c - cHalf * w
def hi (c w : EReal) : EReal := c + cHalf * w

/-- The sum of the four absolute coordinate differences, associated to the left. -/
def l1 (p t : Fin 4 → EReal) : EReal :=
  ((absE (p 0 - t 0) + absE (p 1 - t 1)) + absE (p 2 - t 2)) + absE (p 3 - t 3)

/-- The area of the intersection of the two boxes. -/
def inter (p t : Fin 4 → EReal) : EReal :=
  clip0 (min (hi (p 0) (p 2)) (hi (t 0) (t 2)) - max (lo (p 0) (p 2)) (lo (t 0) (t 2)))
    * clip0 (min (hi (p 1) (p 3)) (hi (t 1) (t 3)) - max (lo (p 1) (p 3)) (lo (t 1) (t 3)))
/-- A box's own area. -/
def area (p : Fin 4 → EReal) : EReal :=
  clip0 (hi (p 0) (p 2) - lo (p 0) (p 2)) * clip0 (hi (p 1) (p 3) - lo (p 1) (p 3))
/-- The area of the union. -/
def union (p t : Fin 4 → EReal) : EReal := (area p + area t) - inter p t
/-- The area of the smallest box enclosing both. -/
def enc (p t : Fin 4 → EReal) : EReal :=
  clip0 (max (hi (p 0) (p 2)) (hi (t 0) (t 2)) - min (lo (p 0) (p 2)) (lo (t 0) (t 2)))
    * clip0 (max (hi (p 1) (p 3)) (hi (t 1) (t 3)) - min (lo (p 1) (p 3)) (lo (t 1) (t 3)))
/-- The generalised intersection-over-union. -/
def giou (p t : Fin 4 → EReal) : EReal :=
  Ideal.div (inter p t) (union p t) - Ideal.div (enc p t - union p t) (enc p t)

/-- The maximum of a row of 80 scores, folded from `−∞`. -/
def rowMax (x : Fin 80 → EReal) : EReal := (Finset.univ : Finset (Fin 80)).fold max cNegInf x
/-- `e^(x_c − max x)`. -/
def expShift (x : Fin 80 → EReal) (c : Fin 80) : EReal := Ideal.exp (x c - rowMax x)
/-- The softmax of the row at class `c`. -/
def prob (x : Fin 80 → EReal) (c : Fin 80) : EReal := Ideal.div (expShift x c) (∑ k : Fin 80, expShift x k)
/-- The indicator of `c = l` as a float: the comparison's bit, widened to a word, read as a signed integer. -/
def oneHot (c : Fin 80) (l : BitVec 32) : EReal :=
  FloatOps.sitofp (F := Ideal) .f32 ((IntOp.cmpi .eq (BitVec.ofNat 32 c.val) l).setWidth 32)
/-- The class probabilities contracted against the label's indicator column. -/
def classPick (x : Fin 80 → EReal) (l : BitVec 32) : EReal := ∑ c : Fin 80, prob x c * oneHot c l

/-- The cost of one (query, target) pair. -/
def cost (x : Fin 80 → EReal) (l : BitVec 32) (p t : Fin 4 → EReal) : EReal :=
  (cOne * (cZero - classPick x l) + cFive * l1 p t) + cTwo * (cZero - giou p t)

/-! ## The whole array -/

abbrev SLogits : Shape := ⟨3, ![512, 300, 80]⟩
abbrev SPBox : Shape := ⟨3, ![512, 300, 4]⟩
abbrev SLabel : Shape := ⟨2, ![512, 200]⟩
abbrev STBox : Shape := ⟨3, ![512, 200, 4]⟩
abbrev SCost : Shape := ⟨3, ![512, 300, 200]⟩

/-- The cost of query `q` against target `t` of image `b`. -/
def costAt (L : SLogits.Idx → EReal) (P : SPBox.Idx → EReal) (lab : SLabel.Idx → BitVec 32) (T : STBox.Idx → EReal)
    (b : Fin 512) (q : Fin 300) (t : Fin 200) : EReal :=
  cost (fun c => L (ix3 b q c)) (lab (ix2 b t)) (fun k => P (ix3 b q k)) (fun k => T (ix3 b t k))

/-- The cost array. -/
def G (L : SLogits.Idx → EReal) (P : SPBox.Idx → EReal) (lab : SLabel.Idx → BitVec 32) (T : STBox.Idx → EReal) :
    SCost.Idx → EReal :=
  fun j => costAt L P lab T ⟨(j 0).val, (j 0).isLt⟩ ⟨(j 1).val, (j 1).isLt⟩ ⟨(j 2).val, (j 2).isLt⟩

theorem G_ix3 (L : SLogits.Idx → EReal) (P : SPBox.Idx → EReal) (lab : SLabel.Idx → BitVec 32) (T : STBox.Idx → EReal)
    (b : Fin 512) (q : Fin 300) (t : Fin 200) : G L P lab T (ix3 b q t) = costAt L P lab T b q t := rfl

/-! ## The laws that join the two programs' spellings -/

/-- `0 − a = −a` on the extended reals, for the zero the literal denotes. -/
theorem cZero_sub (a : EReal) : cZero - a = -a := by
  unfold cZero; rw [Ideal.ofBits_zero_f32, zero_sub]

/-- The maximum against the fold's own starting value changes nothing. -/
theorem max_rowMax (x : Fin 80 → EReal) : max cNegInf (rowMax x) = rowMax x :=
  max_eq_right ((Finset.le_fold_max _).2 (Or.inl le_rfl))

/-- The indicator is `1` at the label's class and `0` elsewhere, for a label in range. -/
theorem oneHot_eq (c : Fin 80) (l : BitVec 32) (hl : l.toNat < 80) :
    oneHot c l = if c.val = l.toNat then 1 else 0 := by
  show ((((IntOp.cmpi .eq (BitVec.ofNat 32 c.val) l).setWidth 32).toInt : ℝ) : EReal) = _
  have hc : c.val < 80 := c.isLt
  by_cases h : c.val = l.toNat
  · have e : BitVec.ofNat 32 c.val = l := BitVec.eq_of_toNat_eq (by rw [BitVec.toNat_ofNat, h]; omega)
    rw [StableHlo.Predicate.cmpi_eq_iff.2 e, if_pos h]
    have : ((1#1 : BitVec 1).setWidth 32).toInt = 1 := by decide
    rw [this]; norm_num
  · have e : ¬ BitVec.ofNat 32 c.val = l := fun e => h (by rw [← e, BitVec.toNat_ofNat]; omega)
    have hz : IntOp.cmpi .eq (BitVec.ofNat 32 c.val) l = 0#1 :=
      eq_zero_of_ne_one (fun h1 => e (StableHlo.Predicate.cmpi_eq_iff.1 h1))
    rw [hz, if_neg h]
    have : ((0#1 : BitVec 1).setWidth 32).toInt = 0 := by decide
    rw [this]; norm_num

/-- For a label in range the contraction is the label's entry. -/
theorem classPick_eq (x : Fin 80 → EReal) (l : BitVec 32) (hl : l.toNat < 80) :
    classPick x l = prob x ⟨l.toNat, hl⟩ := by
  unfold classPick
  rw [Finset.sum_eq_single (⟨l.toNat, hl⟩ : Fin 80)]
  · rw [oneHot_eq _ _ hl, if_pos rfl, mul_one]
  · intro c _ hc
    rw [oneHot_eq _ _ hl, if_neg (fun h => hc (Fin.ext h)), mul_zero]
  · intro h; exact absurd (Finset.mem_univ _) h

/-- The four terms, in any grouping, are the sum over the coordinate axis started from zero. -/
theorem l1_eq_sum (p t : Fin 4 → EReal) : l1 p t = cZero + ∑ k : Fin 4, absE (p k - t k) := by
  unfold l1 cZero
  rw [Ideal.ofBits_zero_f32, zero_add, Fin.sum_univ_four]

end Cert.CostSpec

end
-- ==== Proof.LibTakeAlongLast.lean ====
/-
  `jnp.take_along_axis(x, idx[:, None, :], axis=2)` read at an element.

  For `x : [B, Q, C]` and integer `idx : [B, T]`, jnp lowers the take along the last axis to a `stablehlo.gather` over
  the start indices laid out as `[B, T, 1]`: operand axis 0 is a batching axis paired with start-indices axis 0, operand
  axis 1 is carried whole as the result's offset axis 1 (slice size `Q`), and operand axis 2 is collapsed and
  start-indexed. Result element `(b, q, t)` is the operand at `(b, q, s)`, where `s` is the start index
  `idx[b, t, 0]` read as a signed integer and clamped into `[0, C − 1]`.
-/
import Idealize.ShloMosaic.PureOps.ShapeOps
import Idealize.ShloMosaic.Lib.ValueIdx

noncomputable section

namespace TakeAlongLast

open Idealize.ShloMosaic Idealize.ShloMosaic.ValueIdx

/-- The dimension numbers of that gather; their conditions `wf` are decided on a program's literal shapes. -/
abbrev dims (B Q C T : Nat)
    (wf : GatherDims.WF ⟨3, ![B, Q, C]⟩ ⟨3, ![B, T, 1]⟩ ⟨3, ![B, Q, T]⟩ [1] [2] [0] [2] [0] 2 ![1, Q, 1]) :
    GatherDims ⟨3, ![B, Q, C]⟩ ⟨3, ![B, T, 1]⟩ ⟨3, ![B, Q, T]⟩ where
  offsetDims := [1]
  collapsedSliceDims := [2]
  operandBatchingDims := [0]
  startIndicesBatchingDims := [0]
  startIndexMap := [2]
  indexVectorDim := 2
  sliceSizes := ![1, Q, 1]
  wf := wf

/-- THE GATHER READ AT `(b, q, t)`: the operand at `(b, q, ·)` on the class given by the start index `idx[b, t, 0]`,
    read signed and clamped into `[0, C − 1]`. -/
theorem gather_apply {α : Type} {B Q C T w : Nat} (hC : 0 < C)
    (wf : GatherDims.WF ⟨3, ![B, Q, C]⟩ ⟨3, ![B, T, 1]⟩ ⟨3, ![B, Q, T]⟩ [1] [2] [0] [2] [0] 2 ![1, Q, 1])
    (x : (⟨3, ![B, Q, C]⟩ : Shape).Idx → α) (idx : IVec ⟨3, ![B, T, 1]⟩ w) (b : Fin B) (q : Fin Q) (t : Fin T) :
    Host.gather (dims B Q C T wf) x idx (ix3 b q t)
      = x (ix3 b q ⟨min (idx (ix3 b t (0 : Fin 1))).toInt.toNat (C - 1), by omega⟩) := by
  unfold Host.gather
  congr 1
  funext a
  refine Fin.ext ?_
  show (dims B Q C T wf).start (ix3 b q t) idx a + (dims B Q C T wf).batchCoord (ix3 b q t) a
      + (dims B Q C T wf).offCoord (ix3 b q t) a = _
  match a with
  | ⟨0, _⟩ =>
    -- the batching axis: no start index, no offset; the image is the result's batch coordinate
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    -- the axis carried whole: neither start-indexed nor batching; the query is the result's offset coordinate
    have hb : (⟨1, by decide⟩ : Fin 3) ∉ ([0] : List (Fin 3)) := by decide
    have hs : (⟨1, by decide⟩ : Fin 3) ∉ ([2] : List (Fin 3)) := by decide
    rw [GatherDims.batchCoord_eq_zero _ _ _ hb]
    unfold GatherDims.start
    rw [dif_neg hs]
    simp only [Nat.zero_add]
    rfl
  | ⟨2, _⟩ =>
    -- the collapsed axis: the start index alone, clamped so that the one-entry slice fits
    have hb : (⟨2, by decide⟩ : Fin 3) ∉ ([0] : List (Fin 3)) := by decide
    have hm : (⟨2, by decide⟩ : Fin 3) ∈ (dims B Q C T wf).startIndexMap := List.mem_singleton.mpr rfl
    rw [GatherDims.batchCoord_eq_zero _ _ _ hb,
      GatherDims.offCoord_eq_zero _ _ _ (fun h => ((GatherDims.mem_sKept _ _).mp h).1 (List.mem_singleton.mpr rfl))]
    simp only [Nat.add_zero]
    unfold GatherDims.start
    rw [dif_pos hm]
    have hsi : (dims B Q C T wf).siIdx (ix3 b q t) ⟨List.idxOf (⟨2, by decide⟩ : Fin 3) (dims B Q C T wf).startIndexMap,
        List.idxOf_lt_length_iff.2 hm⟩ = ix3 b t (0 : Fin 1) := by
      funext d; refine Fin.ext ?_
      match d with
      | ⟨0, _⟩ => rfl
      | ⟨1, _⟩ => rfl
      | ⟨2, _⟩ => rfl
    rw [hsi]
    rfl

end TakeAlongLast

end
-- ==== Proof.RefClass.lean ====
/-
  The reference's class term at an element: minus the softmax probability of the target's label.
-/
import proofs.«421009_j25984552141569_1_alg».proof.Proof.RefRead
import proofs.«421009_j25984552141569_1_alg».proof.Proof.CostSpec
import proofs.«421009_j25984552141569_1_alg».proof.Proof.LibTakeAlongLast
import Idealize.ShloMosaic.PureOps.Reduce
import Idealize.ShloMosaic.PureOps.Ideal.Laws
import Idealize.ShloMosaic.Lib.ValueIdx
import Idealize.ShloMosaic.Lib.StableHlo.Predicate

noncomputable section

namespace Cert.RefClass

open Cert.ReferenceIdeal Cert.ReferenceIdeal.ReadP Cert.CostSpec Idealize.ShloMosaic Idealize.ShloMosaic.ValueIdx

/-- A left fold by `and` from 1 over words that are all 1 is 1. -/
private theorem foldl_andi_one {ι : Type} (f : ι → BitVec 1) (hf : ∀ n, f n = 1#1) :
    ∀ (l : List ι), l.foldl (fun r n => IntOp.andi r (f n)) 1#1 = 1#1
  | [] => rfl
  | a :: l => by
    rw [List.foldl_cons, hf a, show IntOp.andi 1#1 1#1 = 1#1 from by decide]
    exact foldl_andi_one f hf l

/-- A reduce by `and` from 1 of an array that is 1 everywhere is 1 everywhere. -/
private theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x hx _

/-- A label word below 80 is not negative as a signed word. -/
private theorem slt_zero_of_lt (l : BitVec 32) (h : l.toNat < 80) : IntOp.cmpi .slt l 0#32 = 0#1 := by
  have h1 : ¬ (IntOp.cmpi .slt l 0#32 = 1#1) := by
    rw [StableHlo.Predicate.slt_iff_toNat (by omega) (by decide)]
    simp
  exact eq_zero_of_ne_one h1

/-- A label word below 80 is at least 0 as a signed word. -/
private theorem sge_zero_of_lt (l : BitVec 32) (h : l.toNat < 80) : IntOp.cmpi .sge l 0#32 = 1#1 := by
  rw [StableHlo.Predicate.sge_iff_toNat (by omega) (by decide)]
  simp

/-- A label word below 80 is at most 79 as a signed word. -/
private theorem sle_79_of_lt (l : BitVec 32) (h : l.toNat < 80) : IntOp.cmpi .sle l 79#32 = 1#1 := by
  rw [StableHlo.Predicate.sle_iff_toNat (by omega) (by decide)]
  show l.toNat ≤ 79
  omega

/-- For a label word below 80 the clamp of its signed value into `[0, 79]` is its value. -/
private theorem clamp_of_lt (l : BitVec 32) (h : l.toNat < 80) : min l.toInt.toNat (80 - 1) = l.toNat := by
  rw [StableHlo.Predicate.toInt_eq_toNat_of_lt (by omega), Int.toNat_natCast]
  omega

/-- The max-reduce over the class axis at `(b, q)` is the row's maximum. -/
private theorem v0_at (x0 : (⟨S512x300x80, .f32⟩ : BufTy).Contents (Elt Ideal)) (b : Fin 512) (q : Fin 300) :
    val_main_v0 (F := Ideal) x0 (ix2 b q) = rowMax (fun c => x0 (ix3 b q c)) := by
  unfold val_main_v0
  rw [Host.reduce_eq_fold_single _ _ _ _ (by decide) _]
  unfold rowMax
  refine congrArg (fun f : Fin 80 → EReal => Finset.fold max cNegInf f Finset.univ) ?_
  funext c
  refine congrArg x0 ?_
  funext a; apply Fin.ext
  match a with
  | ⟨0, _⟩ => rfl
  | ⟨1, _⟩ => rfl
  | ⟨2, _⟩ => rfl

/-- The value subtracted from every score of row `(b, q)` is the row's maximum. -/
private theorem shift_at (x0 : (⟨S512x300x80, .f32⟩ : BufTy).Contents (Elt Ideal)) (b : Fin 512) (q : Fin 300) (c : Fin 80) :
    val_main_v4 (F := Ideal) x0 (ix3 b q c) = rowMax (fun c => x0 (ix3 b q c)) := by
  have hi : idx_main_v3 (idx_main_v4 (ix3 b q c)) = ix2 b q := by
    funext a; apply Fin.ext
    match a with
    | ⟨0, _⟩ => rfl
    | ⟨1, _⟩ => rfl
  rw [val_main_v4_apply, val_main_v3_apply, val_main_v2_apply, val_main_v1_apply, val_main_cst_0_apply, hi, v0_at]
  exact max_rowMax _

/-- The exponential at `(b, q, c)` is the shifted exponential of the row. -/
private theorem exp_at (x0 : (⟨S512x300x80, .f32⟩ : BufTy).Contents (Elt Ideal)) (b : Fin 512) (q : Fin 300) (c : Fin 80) :
    val_main_v6 (F := Ideal) x0 (ix3 b q c) = expShift (fun c => x0 (ix3 b q c)) c := by
  rw [val_main_v6_apply, val_main_v5_apply, shift_at]
  rfl

/-- The sum-reduce at `(b, q)` is the sum of the row's shifted exponentials. -/
private theorem sum_at (x0 : (⟨S512x300x80, .f32⟩ : BufTy).Contents (Elt Ideal)) (b : Fin 512) (q : Fin 300) :
    val_main_v7 (F := Ideal) x0 (ix2 b q) = ∑ k : Fin 80, expShift (fun c => x0 (ix3 b q c)) k := by
  rw [val_main_v7_apply, val_main_cst_1_apply]
  show Ideal.ofBits .f32 0x00000000#32 + _ = _
  rw [Ideal.ofBits_zero_f32, zero_add]
  refine Finset.sum_congr rfl fun k _ => ?_
  have hi : idx_main_v7 (ix2 b q) k = ix3 b q k := by
    funext a; apply Fin.ext
    match a with
    | ⟨0, _⟩ => rfl
    | ⟨1, _⟩ => rfl
    | ⟨2, _⟩ => rfl
  rw [hi, exp_at]

/-- The softmax at `(b, q, c)`. -/
private theorem prob_at (x0 : (⟨S512x300x80, .f32⟩ : BufTy).Contents (Elt Ideal)) (b : Fin 512) (q : Fin 300) (c : Fin 80) :
    val_main_v10 (F := Ideal) x0 (ix3 b q c) = prob (fun c => x0 (ix3 b q c)) c := by
  have hi : idx_main_v8 (idx_main_v9 (ix3 b q c)) = ix2 b q := by
    funext a; apply Fin.ext
    match a with
    | ⟨0, _⟩ => rfl
    | ⟨1, _⟩ => rfl
  rw [val_main_v10_apply, val_main_v9_apply, val_main_v8_apply, exp_at, hi, sum_at]
  rfl

/-- The normalised start index is the label itself: a label below 80 is not negative. -/
private theorem label_idx (x2 : (⟨S512x200, .i32⟩ : BufTy).Contents (Elt Ideal)) (hl : ∀ i, (x2 i).toNat < 80)
    (i : S512x200x1.Idx) :
    val_main_call0_v5 (F := Ideal) x2 i = x2 (idx_main_v11 (idx_main_call0_v5 i)) := by
  rw [val_main_call0_v5_apply, val_main_call0_v4_apply, val_main_call0_v1_apply, val_main_call0_v0_apply,
    val_main_call0_c_apply, val_main_v11_apply, slt_zero_of_lt _ (hl _), select_zero]

/-- The start index of target `(b, t)` is its label. -/
private theorem label_at (x2 : (⟨S512x200, .i32⟩ : BufTy).Contents (Elt Ideal)) (hl : ∀ i, (x2 i).toNat < 80)
    (b : Fin 512) (t : Fin 200) :
    val_main_call0_v5 (F := Ideal) x2 (ix3 b t (0 : Fin 1)) = x2 (ix2 b t) := by
  rw [label_idx x2 hl]
  refine congrArg x2 ?_
  funext a; apply Fin.ext
  match a with
  | ⟨0, _⟩ => show ((b.val * 200 + t.val) * 1 + 0) / 200 = b.val; have := t.isLt; omega
  | ⟨1, _⟩ => show ((b.val * 200 + t.val) * 1 + 0) % 200 = t.val; have := t.isLt; omega

/-- With every label in `[0, 80)` the range test passes everywhere. -/
private theorem inrange_at (x2 : (⟨S512x200, .i32⟩ : BufTy).Contents (Elt Ideal)) (hl : ∀ i, (x2 i).toNat < 80)
    (j : S512x200.Idx) : val_main_call0_v12 (F := Ideal) x2 j = 1#1 := by
  unfold val_main_call0_v12
  refine reduce_andi_of_all _ _ _ _ rfl (fun i => ?_) j
  rw [val_main_call0_v11_apply, val_main_call0_v7_apply, val_main_call0_v10_apply, val_main_call0_v6_apply,
    val_main_call0_c_2_apply, val_main_call0_v9_apply, val_main_call0_v8_apply, val_main_call0_c_1_apply,
    label_idx x2 hl, sge_zero_of_lt _ (hl _), sle_79_of_lt _ (hl _)]
  decide

/-- The gather read at `(b, q, t)`: the operand on the class given by the start index clamped into `[0, 79]`. -/
private theorem gather_at (x : S512x300x80.Idx → EReal) (idx : IVec S512x200x1 32) (b : Fin 512) (q : Fin 300) (t : Fin 200) :
    Host.gather gather_S512x300x80_S512x200x1_S512x300x200_1_2_0_0_2_2_13001 x idx (ix3 b q t)
      = x (ix3 b q ⟨min (idx (ix3 b t (0 : Fin 1))).toInt.toNat (80 - 1), by omega⟩) :=
  TakeAlongLast.gather_apply (by decide) gather_S512x300x80_S512x200x1_S512x300x200_1_2_0_0_2_2_13001.wf x idx b q t

theorem class_at (x0 : (⟨S512x300x80, .f32⟩ : BufTy).Contents (Elt Ideal)) (x2 : (⟨S512x200, .i32⟩ : BufTy).Contents (Elt Ideal))
    (hl : ∀ i, (x2 i).toNat < 80) (b : Fin 512) (q : Fin 300) (t : Fin 200) :
    val_main_v13 (F := Ideal) x0 x2 (ix3 b q t)
      = -(prob (fun c => x0 (ix3 b q c)) ⟨(x2 (ix2 b t)).toNat, hl _⟩) := by
  have hg : val_main_call0_v13 (F := Ideal) x0 x2 (ix3 b q t)
      = val_main_v10 (F := Ideal) x0 (ix3 b q ⟨(x2 (ix2 b t)).toNat, hl _⟩) := by
    unfold val_main_call0_v13
    rw [gather_at]
    refine congrArg (fun c => val_main_v10 (F := Ideal) x0 (ix3 b q c)) (Fin.ext ?_)
    show min (val_main_call0_v5 (F := Ideal) x2 (ix3 b t (0 : Fin 1))).toInt.toNat (80 - 1) = (x2 (ix2 b t)).toNat
    rw [label_at x2 hl, clamp_of_lt _ (hl _)]
  rw [val_main_v13_apply, val_main_v12_apply, val_main_call0_v14_apply, inrange_at x2 hl, select_one, hg, prob_at]
  rfl

end Cert.RefClass

end
-- ==== Proof.RefBBox.lean ====
/-
  The reference's box-distance term at an element: zero plus the sum over the four coordinates of the absolute differences.
-/
import proofs.«421009_j25984552141569_1_alg».proof.Proof.RefRead
import proofs.«421009_j25984552141569_1_alg».proof.Proof.CostSpec

noncomputable section

namespace Cert.RefBBox

open Cert.ReferenceIdeal Cert.ReferenceIdeal.ReadP Cert.CostSpec Idealize.ShloMosaic Idealize.ShloMosaic.ValueIdx

theorem bbox_at (x1 : (⟨S512x300x4, .f32⟩ : BufTy).Contents (Elt Ideal)) (x3 : (⟨S512x200x4, .f32⟩ : BufTy).Contents (Elt Ideal))
    (b : Fin 512) (q : Fin 300) (t : Fin 200) :
    val_main_v20 (F := Ideal) x1 x3 (ix3 b q t)
      = cZero + ∑ k : Fin 4, absE (x1 (ix3 b q k) - x3 (ix3 b t k)) := by
  rw [val_main_v20_apply, val_main_cst_2_apply]
  show cZero + _ = cZero + _
  refine congrArg (cZero + ·) (Finset.sum_congr rfl fun k _ => ?_)
  -- the query's box is read at `(b, q, k)`, the target's at `(b, t, k)`
  have h1 : idx_main_v14 (idx_main_v16 (idx_main_v20 (ix3 b q t) k)) = ix3 b q k := by
    funext a; apply Fin.ext
    match a with
    | ⟨0, _⟩ => rfl
    | ⟨1, _⟩ => rfl
    | ⟨2, _⟩ => rfl
  have h3 : idx_main_v15 (idx_main_v17 (idx_main_v20 (ix3 b q t) k)) = ix3 b t k := by
    funext a; apply Fin.ext
    match a with
    | ⟨0, _⟩ => rfl
    | ⟨1, _⟩ => rfl
    | ⟨2, _⟩ => rfl
  rw [val_main_v19_apply, val_main_v18_apply, val_main_v16_apply, val_main_v14_apply, val_main_v17_apply,
    val_main_v15_apply, h1, h3]
  rfl

end Cert.RefBBox

end
-- ==== Proof.RefGiou.lean ====
/-
  The reference's overlap term at an element: minus the generalised intersection-over-union of the two boxes.
-/
import proofs.«421009_j25984552141569_1_alg».proof.Proof.RefRead
import proofs.«421009_j25984552141569_1_alg».proof.Proof.CostSpec

noncomputable section

namespace Cert.RefGiou

open Cert.ReferenceIdeal Cert.ReferenceIdeal.ReadP Cert.CostSpec Idealize.ShloMosaic Idealize.ShloMosaic.ValueIdx

/-! ## A concatenation of four unit pieces along the last axis, read at each coordinate of that axis

At coordinate `k` of the joined axis the value is piece `k` at coordinate `0`, the other coordinates unchanged. -/

section Cat
variable {α : Type} {n0 n1 : Nat}

private theorem cat4_at0
    (h : Shape.Concatenates [(⟨3, ![n0, n1, 1]⟩ : Shape), ⟨3, ![n0, n1, 1]⟩, ⟨3, ![n0, n1, 1]⟩, ⟨3, ![n0, n1, 1]⟩] ⟨3, ![n0, n1, 4]⟩ 2)
    (y0 y1 y2 y3 : (⟨3, ![n0, n1, 1]⟩ : Shape).Idx → α) (b : Fin n0) (q : Fin n1) :
    concatenate (⟨3, ![n0, n1, 4]⟩ : Shape) 2 [⟨⟨3, ![n0, n1, 1]⟩, y0⟩, ⟨⟨3, ![n0, n1, 1]⟩, y1⟩, ⟨⟨3, ![n0, n1, 1]⟩, y2⟩, ⟨⟨3, ![n0, n1, 1]⟩, y3⟩] h (ix3 b q 0)
      = y0 (ix3 b q 0) := by
  refine concatenate_apply_piece (t := ⟨3, ![n0, n1, 4]⟩) 2
    [⟨⟨3, ![n0, n1, 1]⟩, y0⟩, ⟨⟨3, ![n0, n1, 1]⟩, y1⟩, ⟨⟨3, ![n0, n1, 1]⟩, y2⟩, ⟨⟨3, ![n0, n1, 1]⟩, y3⟩] h (ix3 b q 0)
    0 (by show (0 : Nat) < 4; decide) ⟨3, ![n0, n1, 1]⟩ y0 rfl rfl 0 rfl (ix3 b q 0) ?_ ?_
  · intro c hc
    match c with
    | ⟨0, _⟩ => rfl
    | ⟨1, _⟩ => rfl
    | ⟨2, _⟩ => exact absurd rfl hc
  · rfl

private theorem cat4_at1
    (h : Shape.Concatenates [(⟨3, ![n0, n1, 1]⟩ : Shape), ⟨3, ![n0, n1, 1]⟩, ⟨3, ![n0, n1, 1]⟩, ⟨3, ![n0, n1, 1]⟩] ⟨3, ![n0, n1, 4]⟩ 2)
    (y0 y1 y2 y3 : (⟨3, ![n0, n1, 1]⟩ : Shape).Idx → α) (b : Fin n0) (q : Fin n1) :
    concatenate (⟨3, ![n0, n1, 4]⟩ : Shape) 2 [⟨⟨3, ![n0, n1, 1]⟩, y0⟩, ⟨⟨3, ![n0, n1, 1]⟩, y1⟩, ⟨⟨3, ![n0, n1, 1]⟩, y2⟩, ⟨⟨3, ![n0, n1, 1]⟩, y3⟩] h (ix3 b q 1)
      = y1 (ix3 b q 0) := by
  refine concatenate_apply_piece (t := ⟨3, ![n0, n1, 4]⟩) 2
    [⟨⟨3, ![n0, n1, 1]⟩, y0⟩, ⟨⟨3, ![n0, n1, 1]⟩, y1⟩, ⟨⟨3, ![n0, n1, 1]⟩, y2⟩, ⟨⟨3, ![n0, n1, 1]⟩, y3⟩] h (ix3 b q 1)
    1 (by show (1 : Nat) < 4; decide) ⟨3, ![n0, n1, 1]⟩ y1 rfl rfl 1 rfl (ix3 b q 0) ?_ ?_
  · intro c hc
    match c with
    | ⟨0, _⟩ => rfl
    | ⟨1, _⟩ => rfl
    | ⟨2, _⟩ => exact absurd rfl hc
  · rfl

private theorem cat4_at2
    (h : Shape.Concatenates [(⟨3, ![n0, n1, 1]⟩ : Shape), ⟨3, ![n0, n1, 1]⟩, ⟨3, ![n0, n1, 1]⟩, ⟨3, ![n0, n1, 1]⟩] ⟨3, ![n0, n1, 4]⟩ 2)
    (y0 y1 y2 y3 : (⟨3, ![n0, n1, 1]⟩ : Shape).Idx → α) (b : Fin n0) (q : Fin n1) :
    concatenate (⟨3, ![n0, n1, 4]⟩ : Shape) 2 [⟨⟨3, ![n0, n1, 1]⟩, y0⟩, ⟨⟨3, ![n0, n1, 1]⟩, y1⟩, ⟨⟨3, ![n0, n1, 1]⟩, y2⟩, ⟨⟨3, ![n0, n1, 1]⟩, y3⟩] h (ix3 b q 2)
      = y2 (ix3 b q 0) := by
  refine concatenate_apply_piece (t := ⟨3, ![n0, n1, 4]⟩) 2
    [⟨⟨3, ![n0, n1, 1]⟩, y0⟩, ⟨⟨3, ![n0, n1, 1]⟩, y1⟩, ⟨⟨3, ![n0, n1, 1]⟩, y2⟩, ⟨⟨3, ![n0, n1, 1]⟩, y3⟩] h (ix3 b q 2)
    2 (by show (2 : Nat) < 4; decide) ⟨3, ![n0, n1, 1]⟩ y2 rfl rfl 2 rfl (ix3 b q 0) ?_ ?_
  · intro c hc
    match c with
    | ⟨0, _⟩ => rfl
    | ⟨1, _⟩ => rfl
    | ⟨2, _⟩ => exact absurd rfl hc
  · rfl

private theorem cat4_at3
    (h : Shape.Concatenates [(⟨3, ![n0, n1, 1]⟩ : Shape), ⟨3, ![n0, n1, 1]⟩, ⟨3, ![n0, n1, 1]⟩, ⟨3, ![n0, n1, 1]⟩] ⟨3, ![n0, n1, 4]⟩ 2)
    (y0 y1 y2 y3 : (⟨3, ![n0, n1, 1]⟩ : Shape).Idx → α) (b : Fin n0) (q : Fin n1) :
    concatenate (⟨3, ![n0, n1, 4]⟩ : Shape) 2 [⟨⟨3, ![n0, n1, 1]⟩, y0⟩, ⟨⟨3, ![n0, n1, 1]⟩, y1⟩, ⟨⟨3, ![n0, n1, 1]⟩, y2⟩, ⟨⟨3, ![n0, n1, 1]⟩, y3⟩] h (ix3 b q 3)
      = y3 (ix3 b q 0) := by
  refine concatenate_apply_piece (t := ⟨3, ![n0, n1, 4]⟩) 2
    [⟨⟨3, ![n0, n1, 1]⟩, y0⟩, ⟨⟨3, ![n0, n1, 1]⟩, y1⟩, ⟨⟨3, ![n0, n1, 1]⟩, y2⟩, ⟨⟨3, ![n0, n1, 1]⟩, y3⟩] h (ix3 b q 3)
    3 (by show (3 : Nat) < 4; decide) ⟨3, ![n0, n1, 1]⟩ y3 rfl rfl 3 rfl (ix3 b q 0) ?_ ?_
  · intro c hc
    match c with
    | ⟨0, _⟩ => rfl
    | ⟨1, _⟩ => rfl
    | ⟨2, _⟩ => exact absurd rfl hc
  · rfl

end Cat

/-! ## The boxes' centre and size columns, and their corners, one box at a time -/

private theorem p_v22 (x1 : (⟨S512x300x4, .f32⟩ : BufTy).Contents (Elt Ideal)) (b : Fin 512) (q : Fin 300) :
    val_main_v22 (F := Ideal) x1 (ix2 b q) = x1 (ix3 b q 0) := by
  rw [val_main_v22_apply, val_main_v21_apply]
  exact congrArg x1 (funext fun a => Fin.ext (by
    have hb := b.isLt; have hq := q.isLt
    match a with
    | ⟨0, _⟩ => show (b.val * 300 + q.val) / 300 = b.val; omega
    | ⟨1, _⟩ => show (b.val * 300 + q.val) / 1 % 300 = q.val; omega
    | ⟨2, _⟩ => rfl))

private theorem p_v24 (x1 : (⟨S512x300x4, .f32⟩ : BufTy).Contents (Elt Ideal)) (b : Fin 512) (q : Fin 300) :
    val_main_v24 (F := Ideal) x1 (ix2 b q) = x1 (ix3 b q 1) := by
  rw [val_main_v24_apply, val_main_v23_apply]
  exact congrArg x1 (funext fun a => Fin.ext (by
    have hb := b.isLt; have hq := q.isLt
    match a with
    | ⟨0, _⟩ => show (b.val * 300 + q.val) / 300 = b.val; omega
    | ⟨1, _⟩ => show (b.val * 300 + q.val) / 1 % 300 = q.val; omega
    | ⟨2, _⟩ => rfl))

private theorem p_v26 (x1 : (⟨S512x300x4, .f32⟩ : BufTy).Contents (Elt Ideal)) (b : Fin 512) (q : Fin 300) :
    val_main_v26 (F := Ideal) x1 (ix2 b q) = x1 (ix3 b q 2) := by
  rw [val_main_v26_apply, val_main_v25_apply]
  exact congrArg x1 (funext fun a => Fin.ext (by
    have hb := b.isLt; have hq := q.isLt
    match a with
    | ⟨0, _⟩ => show (b.val * 300 + q.val) / 300 = b.val; omega
    | ⟨1, _⟩ => show (b.val * 300 + q.val) / 1 % 300 = q.val; omega
    | ⟨2, _⟩ => rfl))

private theorem p_v28 (x1 : (⟨S512x300x4, .f32⟩ : BufTy).Contents (Elt Ideal)) (b : Fin 512) (q : Fin 300) :
    val_main_v28 (F := Ideal) x1 (ix2 b q) = x1 (ix3 b q 3) := by
  rw [val_main_v28_apply, val_main_v27_apply]
  exact congrArg x1 (funext fun a => Fin.ext (by
    have hb := b.isLt; have hq := q.isLt
    match a with
    | ⟨0, _⟩ => show (b.val * 300 + q.val) / 300 = b.val; omega
    | ⟨1, _⟩ => show (b.val * 300 + q.val) / 1 % 300 = q.val; omega
    | ⟨2, _⟩ => rfl))

private theorem t_v48 (x3 : (⟨S512x200x4, .f32⟩ : BufTy).Contents (Elt Ideal)) (b : Fin 512) (t : Fin 200) :
    val_main_v48 (F := Ideal) x3 (ix2 b t) = x3 (ix3 b t 0) := by
  rw [val_main_v48_apply, val_main_v47_apply]
  exact congrArg x3 (funext fun a => Fin.ext (by
    have hb := b.isLt; have ht := t.isLt
    match a with
    | ⟨0, _⟩ => show (b.val * 200 + t.val) / 200 = b.val; omega
    | ⟨1, _⟩ => show (b.val * 200 + t.val) / 1 % 200 = t.val; omega
    | ⟨2, _⟩ => rfl))

private theorem t_v50 (x3 : (⟨S512x200x4, .f32⟩ : BufTy).Contents (Elt Ideal)) (b : Fin 512) (t : Fin 200) :
    val_main_v50 (F := Ideal) x3 (ix2 b t) = x3 (ix3 b t 1) := by
  rw [val_main_v50_apply, val_main_v49_apply]
  exact congrArg x3 (funext fun a => Fin.ext (by
    have hb := b.isLt; have ht := t.isLt
    match a with
    | ⟨0, _⟩ => show (b.val * 200 + t.val) / 200 = b.val; omega
    | ⟨1, _⟩ => show (b.val * 200 + t.val) / 1 % 200 = t.val; omega
    | ⟨2, _⟩ => rfl))

private theorem t_v52 (x3 : (⟨S512x200x4, .f32⟩ : BufTy).Contents (Elt Ideal)) (b : Fin 512) (t : Fin 200) :
    val_main_v52 (F := Ideal) x3 (ix2 b t) = x3 (ix3 b t 2) := by
  rw [val_main_v52_apply, val_main_v51_apply]
  exact congrArg x3 (funext fun a => Fin.ext (by
    have hb := b.isLt; have ht := t.isLt
    match a with
    | ⟨0, _⟩ => show (b.val * 200 + t.val) / 200 = b.val; omega
    | ⟨1, _⟩ => show (b.val * 200 + t.val) / 1 % 200 = t.val; omega
    | ⟨2, _⟩ => rfl))

private theorem t_v54 (x3 : (⟨S512x200x4, .f32⟩ : BufTy).Contents (Elt Ideal)) (b : Fin 512) (t : Fin 200) :
    val_main_v54 (F := Ideal) x3 (ix2 b t) = x3 (ix3 b t 3) := by
  rw [val_main_v54_apply, val_main_v53_apply]
  exact congrArg x3 (funext fun a => Fin.ext (by
    have hb := b.isLt; have ht := t.isLt
    match a with
    | ⟨0, _⟩ => show (b.val * 200 + t.val) / 200 = b.val; omega
    | ⟨1, _⟩ => show (b.val * 200 + t.val) / 1 % 200 = t.val; omega
    | ⟨2, _⟩ => rfl))

private theorem p_v31 (x1 : (⟨S512x300x4, .f32⟩ : BufTy).Contents (Elt Ideal)) (b : Fin 512) (q : Fin 300) :
    val_main_v31 (F := Ideal) x1 (ix2 b q) = lo (x1 (ix3 b q 0)) (x1 (ix3 b q 2)) := by
  rw [val_main_v31_apply, val_main_v30_apply, val_main_v29_apply, val_main_cst_3_apply, p_v22, p_v26]
  rfl

private theorem p_v34 (x1 : (⟨S512x300x4, .f32⟩ : BufTy).Contents (Elt Ideal)) (b : Fin 512) (q : Fin 300) :
    val_main_v34 (F := Ideal) x1 (ix2 b q) = lo (x1 (ix3 b q 1)) (x1 (ix3 b q 3)) := by
  rw [val_main_v34_apply, val_main_v33_apply, val_main_v32_apply, val_main_cst_4_apply, p_v24, p_v28]
  rfl

private theorem p_v37 (x1 : (⟨S512x300x4, .f32⟩ : BufTy).Contents (Elt Ideal)) (b : Fin 512) (q : Fin 300) :
    val_main_v37 (F := Ideal) x1 (ix2 b q) = hi (x1 (ix3 b q 0)) (x1 (ix3 b q 2)) := by
  rw [val_main_v37_apply, val_main_v36_apply, val_main_v35_apply, val_main_cst_5_apply, p_v22, p_v26]
  rfl

private theorem p_v40 (x1 : (⟨S512x300x4, .f32⟩ : BufTy).Contents (Elt Ideal)) (b : Fin 512) (q : Fin 300) :
    val_main_v40 (F := Ideal) x1 (ix2 b q) = hi (x1 (ix3 b q 1)) (x1 (ix3 b q 3)) := by
  rw [val_main_v40_apply, val_main_v39_apply, val_main_v38_apply, val_main_cst_6_apply, p_v24, p_v28]
  rfl

private theorem t_v57 (x3 : (⟨S512x200x4, .f32⟩ : BufTy).Contents (Elt Ideal)) (b : Fin 512) (t : Fin 200) :
    val_main_v57 (F := Ideal) x3 (ix2 b t) = lo (x3 (ix3 b t 0)) (x3 (ix3 b t 2)) := by
  rw [val_main_v57_apply, val_main_v56_apply, val_main_v55_apply, val_main_cst_7_apply, t_v48, t_v52]
  rfl

private theorem t_v60 (x3 : (⟨S512x200x4, .f32⟩ : BufTy).Contents (Elt Ideal)) (b : Fin 512) (t : Fin 200) :
    val_main_v60 (F := Ideal) x3 (ix2 b t) = lo (x3 (ix3 b t 1)) (x3 (ix3 b t 3)) := by
  rw [val_main_v60_apply, val_main_v59_apply, val_main_v58_apply, val_main_cst_8_apply, t_v50, t_v54]
  rfl

private theorem t_v63 (x3 : (⟨S512x200x4, .f32⟩ : BufTy).Contents (Elt Ideal)) (b : Fin 512) (t : Fin 200) :
    val_main_v63 (F := Ideal) x3 (ix2 b t) = hi (x3 (ix3 b t 0)) (x3 (ix3 b t 2)) := by
  rw [val_main_v63_apply, val_main_v62_apply, val_main_v61_apply, val_main_cst_9_apply, t_v48, t_v52]
  rfl

private theorem t_v66 (x3 : (⟨S512x200x4, .f32⟩ : BufTy).Contents (Elt Ideal)) (b : Fin 512) (t : Fin 200) :
    val_main_v66 (F := Ideal) x3 (ix2 b t) = hi (x3 (ix3 b t 1)) (x3 (ix3 b t 3)) := by
  rw [val_main_v66_apply, val_main_v65_apply, val_main_v64_apply, val_main_cst_10_apply, t_v50, t_v54]
  rfl

/-! ## The corner arrays: coordinate `k` of the last axis holds corner `k` of the box -/

private theorem c45_0 (x1 : (⟨S512x300x4, .f32⟩ : BufTy).Contents (Elt Ideal)) (b : Fin 512) (q : Fin 300) :
    val_main_v45 (F := Ideal) x1 (ix3 b q 0) = lo (x1 (ix3 b q 0)) (x1 (ix3 b q 2)) := by
  unfold val_main_v45
  rw [cat4_at0, val_main_v41_apply]
  have e : idx_main_v41 (ix3 b q (0 : Fin 1)) = ix2 b q :=
    funext fun a => match a with | ⟨0, _⟩ => rfl | ⟨1, _⟩ => rfl
  rw [e]; exact p_v31 x1 b q

private theorem c45_1 (x1 : (⟨S512x300x4, .f32⟩ : BufTy).Contents (Elt Ideal)) (b : Fin 512) (q : Fin 300) :
    val_main_v45 (F := Ideal) x1 (ix3 b q 1) = lo (x1 (ix3 b q 1)) (x1 (ix3 b q 3)) := by
  unfold val_main_v45
  rw [cat4_at1, val_main_v42_apply]
  have e : idx_main_v42 (ix3 b q (0 : Fin 1)) = ix2 b q :=
    funext fun a => match a with | ⟨0, _⟩ => rfl | ⟨1, _⟩ => rfl
  rw [e]; exact p_v34 x1 b q

private theorem c45_2 (x1 : (⟨S512x300x4, .f32⟩ : BufTy).Contents (Elt Ideal)) (b : Fin 512) (q : Fin 300) :
    val_main_v45 (F := Ideal) x1 (ix3 b q 2) = hi (x1 (ix3 b q 0)) (x1 (ix3 b q 2)) := by
  unfold val_main_v45
  rw [cat4_at2, val_main_v43_apply]
  have e : idx_main_v43 (ix3 b q (0 : Fin 1)) = ix2 b q :=
    funext fun a => match a with | ⟨0, _⟩ => rfl | ⟨1, _⟩ => rfl
  rw [e]; exact p_v37 x1 b q

private theorem c45_3 (x1 : (⟨S512x300x4, .f32⟩ : BufTy).Contents (Elt Ideal)) (b : Fin 512) (q : Fin 300) :
    val_main_v45 (F := Ideal) x1 (ix3 b q 3) = hi (x1 (ix3 b q 1)) (x1 (ix3 b q 3)) := by
  unfold val_main_v45
  rw [cat4_at3, val_main_v44_apply]
  have e : idx_main_v44 (ix3 b q (0 : Fin 1)) = ix2 b q :=
    funext fun a => match a with | ⟨0, _⟩ => rfl | ⟨1, _⟩ => rfl
  rw [e]; exact p_v40 x1 b q

private theorem c71_0 (x3 : (⟨S512x200x4, .f32⟩ : BufTy).Contents (Elt Ideal)) (b : Fin 512) (t : Fin 200) :
    val_main_v71 (F := Ideal) x3 (ix3 b t 0) = lo (x3 (ix3 b t 0)) (x3 (ix3 b t 2)) := by
  unfold val_main_v71
  rw [cat4_at0, val_main_v67_apply]
  have e : idx_main_v67 (ix3 b t (0 : Fin 1)) = ix2 b t :=
    funext fun a => match a with | ⟨0, _⟩ => rfl | ⟨1, _⟩ => rfl
  rw [e]; exact t_v57 x3 b t

private theorem c71_1 (x3 : (⟨S512x200x4, .f32⟩ : BufTy).Contents (Elt Ideal)) (b : Fin 512) (t : Fin 200) :
    val_main_v71 (F := Ideal) x3 (ix3 b t 1) = lo (x3 (ix3 b t 1)) (x3 (ix3 b t 3)) := by
  unfold val_main_v71
  rw [cat4_at1, val_main_v68_apply]
  have e : idx_main_v68 (ix3 b t (0 : Fin 1)) = ix2 b t :=
    funext fun a => match a with | ⟨0, _⟩ => rfl | ⟨1, _⟩ => rfl
  rw [e]; exact t_v60 x3 b t

private theorem c71_2 (x3 : (⟨S512x200x4, .f32⟩ : BufTy).Contents (Elt Ideal)) (b : Fin 512) (t : Fin 200) :
    val_main_v71 (F := Ideal) x3 (ix3 b t 2) = hi (x3 (ix3 b t 0)) (x3 (ix3 b t 2)) := by
  unfold val_main_v71
  rw [cat4_at2, val_main_v69_apply]
  have e : idx_main_v69 (ix3 b t (0 : Fin 1)) = ix2 b t :=
    funext fun a => match a with | ⟨0, _⟩ => rfl | ⟨1, _⟩ => rfl
  rw [e]; exact t_v63 x3 b t

private theorem c71_3 (x3 : (⟨S512x200x4, .f32⟩ : BufTy).Contents (Elt Ideal)) (b : Fin 512) (t : Fin 200) :
    val_main_v71 (F := Ideal) x3 (ix3 b t 3) = hi (x3 (ix3 b t 1)) (x3 (ix3 b t 3)) := by
  unfold val_main_v71
  rw [cat4_at3, val_main_v70_apply]
  have e : idx_main_v70 (ix3 b t (0 : Fin 1)) = ix2 b t :=
    funext fun a => match a with | ⟨0, _⟩ => rfl | ⟨1, _⟩ => rfl
  rw [e]; exact t_v66 x3 b t

/-! ## Each corner as the later operations read it: a slice of the broadcast corner array, reshaped, and (for the
pairwise quantities) broadcast over the other box's axis -/

private theorem e77 (x1 : (⟨S512x300x4, .f32⟩ : BufTy).Contents (Elt Ideal)) (b : Fin 512) (q : Fin 300) (t : Fin 200) :
    val_main_v77 (F := Ideal) x1 (ix3 b q t) = hi (x1 (ix3 b q 0)) (x1 (ix3 b q 2)) := by
  rw [val_main_v77_apply, val_main_v74_apply, val_main_v73_apply, val_main_v46_apply]
  have e : idx_main_v46 (idx_main_v73 (idx_main_v74 (idx_main_v77 (ix3 b q t)))) = ix3 b q 2 :=
    funext fun a => Fin.ext (by
      have hb := b.isLt; have hq := q.isLt
      match a with
      | ⟨0, _⟩ => show ((b.val * 300 + q.val) * 1 + 0) / 300 = b.val; omega
      | ⟨1, _⟩ => show ((b.val * 300 + q.val) * 1 + 0) / 1 % 300 = q.val; omega
      | ⟨2, _⟩ => rfl)
  rw [e]; exact c45_2 x1 b q

private theorem e84 (x1 : (⟨S512x300x4, .f32⟩ : BufTy).Contents (Elt Ideal)) (b : Fin 512) (q : Fin 300) (t : Fin 200) :
    val_main_v84 (F := Ideal) x1 (ix3 b q t) = lo (x1 (ix3 b q 0)) (x1 (ix3 b q 2)) := by
  rw [val_main_v84_apply, val_main_v81_apply, val_main_v80_apply, val_main_v46_apply]
  have e : idx_main_v46 (idx_main_v80 (idx_main_v81 (idx_main_v84 (ix3 b q t)))) = ix3 b q 0 :=
    funext fun a => Fin.ext (by
      have hb := b.isLt; have hq := q.isLt
      match a with
      | ⟨0, _⟩ => show ((b.val * 300 + q.val) * 1 + 0) / 300 = b.val; omega
      | ⟨1, _⟩ => show ((b.val * 300 + q.val) * 1 + 0) / 1 % 300 = q.val; omega
      | ⟨2, _⟩ => rfl)
  rw [e]; exact c45_0 x1 b q

private theorem e93 (x1 : (⟨S512x300x4, .f32⟩ : BufTy).Contents (Elt Ideal)) (b : Fin 512) (q : Fin 300) (t : Fin 200) :
    val_main_v93 (F := Ideal) x1 (ix3 b q t) = hi (x1 (ix3 b q 1)) (x1 (ix3 b q 3)) := by
  rw [val_main_v93_apply, val_main_v90_apply, val_main_v89_apply, val_main_v46_apply]
  have e : idx_main_v46 (idx_main_v89 (idx_main_v90 (idx_main_v93 (ix3 b q t)))) = ix3 b q 3 :=
    funext fun a => Fin.ext (by
      have hb := b.isLt; have hq := q.isLt
      match a with
      | ⟨0, _⟩ => show ((b.val * 300 + q.val) * 1 + 0) / 300 = b.val; omega
      | ⟨1, _⟩ => show ((b.val * 300 + q.val) * 1 + 0) / 1 % 300 = q.val; omega
      | ⟨2, _⟩ => rfl)
  rw [e]; exact c45_3 x1 b q

private theorem e100 (x1 : (⟨S512x300x4, .f32⟩ : BufTy).Contents (Elt Ideal)) (b : Fin 512) (q : Fin 300) (t : Fin 200) :
    val_main_v100 (F := Ideal) x1 (ix3 b q t) = lo (x1 (ix3 b q 1)) (x1 (ix3 b q 3)) := by
  rw [val_main_v100_apply, val_main_v97_apply, val_main_v96_apply, val_main_v46_apply]
  have e : idx_main_v46 (idx_main_v96 (idx_main_v97 (idx_main_v100 (ix3 b q t)))) = ix3 b q 1 :=
    funext fun a => Fin.ext (by
      have hb := b.isLt; have hq := q.isLt
      match a with
      | ⟨0, _⟩ => show ((b.val * 300 + q.val) * 1 + 0) / 300 = b.val; omega
      | ⟨1, _⟩ => show ((b.val * 300 + q.val) * 1 + 0) / 1 % 300 = q.val; omega
      | ⟨2, _⟩ => rfl)
  rw [e]; exact c45_1 x1 b q

private theorem e141 (x1 : (⟨S512x300x4, .f32⟩ : BufTy).Contents (Elt Ideal)) (b : Fin 512) (q : Fin 300) (t : Fin 200) :
    val_main_v141 (F := Ideal) x1 (ix3 b q t) = hi (x1 (ix3 b q 0)) (x1 (ix3 b q 2)) := by
  rw [val_main_v141_apply, val_main_v138_apply, val_main_v137_apply, val_main_v46_apply]
  have e : idx_main_v46 (idx_main_v137 (idx_main_v138 (idx_main_v141 (ix3 b q t)))) = ix3 b q 2 :=
    funext fun a => Fin.ext (by
      have hb := b.isLt; have hq := q.isLt
      match a with
      | ⟨0, _⟩ => show ((b.val * 300 + q.val) * 1 + 0) / 300 = b.val; omega
      | ⟨1, _⟩ => show ((b.val * 300 + q.val) * 1 + 0) / 1 % 300 = q.val; omega
      | ⟨2, _⟩ => rfl)
  rw [e]; exact c45_2 x1 b q

private theorem e148 (x1 : (⟨S512x300x4, .f32⟩ : BufTy).Contents (Elt Ideal)) (b : Fin 512) (q : Fin 300) (t : Fin 200) :
    val_main_v148 (F := Ideal) x1 (ix3 b q t) = lo (x1 (ix3 b q 0)) (x1 (ix3 b q 2)) := by
  rw [val_main_v148_apply, val_main_v145_apply, val_main_v144_apply, val_main_v46_apply]
  have e : idx_main_v46 (idx_main_v144 (idx_main_v145 (idx_main_v148 (ix3 b q t)))) = ix3 b q 0 :=
    funext fun a => Fin.ext (by
      have hb := b.isLt; have hq := q.isLt
      match a with
      | ⟨0, _⟩ => show ((b.val * 300 + q.val) * 1 + 0) / 300 = b.val; omega
      | ⟨1, _⟩ => show ((b.val * 300 + q.val) * 1 + 0) / 1 % 300 = q.val; omega
      | ⟨2, _⟩ => rfl)
  rw [e]; exact c45_0 x1 b q

private theorem e157 (x1 : (⟨S512x300x4, .f32⟩ : BufTy).Contents (Elt Ideal)) (b : Fin 512) (q : Fin 300) (t : Fin 200) :
    val_main_v157 (F := Ideal) x1 (ix3 b q t) = hi (x1 (ix3 b q 1)) (x1 (ix3 b q 3)) := by
  rw [val_main_v157_apply, val_main_v154_apply, val_main_v153_apply, val_main_v46_apply]
  have e : idx_main_v46 (idx_main_v153 (idx_main_v154 (idx_main_v157 (ix3 b q t)))) = ix3 b q 3 :=
    funext fun a => Fin.ext (by
      have hb := b.isLt; have hq := q.isLt
      match a with
      | ⟨0, _⟩ => show ((b.val * 300 + q.val) * 1 + 0) / 300 = b.val; omega
      | ⟨1, _⟩ => show ((b.val * 300 + q.val) * 1 + 0) / 1 % 300 = q.val; omega
      | ⟨2, _⟩ => rfl)
  rw [e]; exact c45_3 x1 b q

private theorem e164 (x1 : (⟨S512x300x4, .f32⟩ : BufTy).Contents (Elt Ideal)) (b : Fin 512) (q : Fin 300) (t : Fin 200) :
    val_main_v164 (F := Ideal) x1 (ix3 b q t) = lo (x1 (ix3 b q 1)) (x1 (ix3 b q 3)) := by
  rw [val_main_v164_apply, val_main_v161_apply, val_main_v160_apply, val_main_v46_apply]
  have e : idx_main_v46 (idx_main_v160 (idx_main_v161 (idx_main_v164 (ix3 b q t)))) = ix3 b q 1 :=
    funext fun a => Fin.ext (by
      have hb := b.isLt; have hq := q.isLt
      match a with
      | ⟨0, _⟩ => show ((b.val * 300 + q.val) * 1 + 0) / 300 = b.val; omega
      | ⟨1, _⟩ => show ((b.val * 300 + q.val) * 1 + 0) / 1 % 300 = q.val; omega
      | ⟨2, _⟩ => rfl)
  rw [e]; exact c45_1 x1 b q

private theorem e107 (x1 : (⟨S512x300x4, .f32⟩ : BufTy).Contents (Elt Ideal)) (b : Fin 512) (q : Fin 300) :
    val_main_v107 (F := Ideal) x1 (ix3 b q 0) = hi (x1 (ix3 b q 0)) (x1 (ix3 b q 2)) := by
  rw [val_main_v107_apply, val_main_v106_apply, val_main_v46_apply]
  have e : idx_main_v46 (idx_main_v106 (idx_main_v107 (ix3 b q (0 : Fin 1)))) = ix3 b q 2 :=
    funext fun a => Fin.ext (by
      have hb := b.isLt; have hq := q.isLt
      match a with
      | ⟨0, _⟩ => show ((b.val * 300 + q.val) * 1 + 0) / 300 = b.val; omega
      | ⟨1, _⟩ => show ((b.val * 300 + q.val) * 1 + 0) / 1 % 300 = q.val; omega
      | ⟨2, _⟩ => rfl)
  rw [e]; exact c45_2 x1 b q

private theorem e109 (x1 : (⟨S512x300x4, .f32⟩ : BufTy).Contents (Elt Ideal)) (b : Fin 512) (q : Fin 300) :
    val_main_v109 (F := Ideal) x1 (ix3 b q 0) = lo (x1 (ix3 b q 0)) (x1 (ix3 b q 2)) := by
  rw [val_main_v109_apply, val_main_v108_apply, val_main_v46_apply]
  have e : idx_main_v46 (idx_main_v108 (idx_main_v109 (ix3 b q (0 : Fin 1)))) = ix3 b q 0 :=
    funext fun a => Fin.ext (by
      have hb := b.isLt; have hq := q.isLt
      match a with
      | ⟨0, _⟩ => show ((b.val * 300 + q.val) * 1 + 0) / 300 = b.val; omega
      | ⟨1, _⟩ => show ((b.val * 300 + q.val) * 1 + 0) / 1 % 300 = q.val; omega
      | ⟨2, _⟩ => rfl)
  rw [e]; exact c45_0 x1 b q

private theorem e113 (x1 : (⟨S512x300x4, .f32⟩ : BufTy).Contents (Elt Ideal)) (b : Fin 512) (q : Fin 300) :
    val_main_v113 (F := Ideal) x1 (ix3 b q 0) = hi (x1 (ix3 b q 1)) (x1 (ix3 b q 3)) := by
  rw [val_main_v113_apply, val_main_v112_apply, val_main_v46_apply]
  have e : idx_main_v46 (idx_main_v112 (idx_main_v113 (ix3 b q (0 : Fin 1)))) = ix3 b q 3 :=
    funext fun a => Fin.ext (by
      have hb := b.isLt; have hq := q.isLt
      match a with
      | ⟨0, _⟩ => show ((b.val * 300 + q.val) * 1 + 0) / 300 = b.val; omega
      | ⟨1, _⟩ => show ((b.val * 300 + q.val) * 1 + 0) / 1 % 300 = q.val; omega
      | ⟨2, _⟩ => rfl)
  rw [e]; exact c45_3 x1 b q

private theorem e115 (x1 : (⟨S512x300x4, .f32⟩ : BufTy).Contents (Elt Ideal)) (b : Fin 512) (q : Fin 300) :
    val_main_v115 (F := Ideal) x1 (ix3 b q 0) = lo (x1 (ix3 b q 1)) (x1 (ix3 b q 3)) := by
  rw [val_main_v115_apply, val_main_v114_apply, val_main_v46_apply]
  have e : idx_main_v46 (idx_main_v114 (idx_main_v115 (ix3 b q (0 : Fin 1)))) = ix3 b q 1 :=
    funext fun a => Fin.ext (by
      have hb := b.isLt; have hq := q.isLt
      match a with
      | ⟨0, _⟩ => show ((b.val * 300 + q.val) * 1 + 0) / 300 = b.val; omega
      | ⟨1, _⟩ => show ((b.val * 300 + q.val) * 1 + 0) / 1 % 300 = q.val; omega
      | ⟨2, _⟩ => rfl)
  rw [e]; exact c45_1 x1 b q

private theorem e78 (x3 : (⟨S512x200x4, .f32⟩ : BufTy).Contents (Elt Ideal)) (b : Fin 512) (q : Fin 300) (t : Fin 200) :
    val_main_v78 (F := Ideal) x3 (ix3 b q t) = hi (x3 (ix3 b t 0)) (x3 (ix3 b t 2)) := by
  rw [val_main_v78_apply, val_main_v76_apply, val_main_v75_apply, val_main_v72_apply]
  have e : idx_main_v72 (idx_main_v75 (idx_main_v76 (idx_main_v78 (ix3 b q t)))) = ix3 b t 2 :=
    funext fun a => Fin.ext (by
      have hb := b.isLt; have ht := t.isLt
      match a with
      | ⟨0, _⟩ => show ((b.val * 1 + 0) * 200 + t.val) / 200 = b.val; omega
      | ⟨1, _⟩ => show ((b.val * 1 + 0) * 200 + t.val) / 1 % 200 = t.val; omega
      | ⟨2, _⟩ => rfl)
  rw [e]; exact c71_2 x3 b t

private theorem e85 (x3 : (⟨S512x200x4, .f32⟩ : BufTy).Contents (Elt Ideal)) (b : Fin 512) (q : Fin 300) (t : Fin 200) :
    val_main_v85 (F := Ideal) x3 (ix3 b q t) = lo (x3 (ix3 b t 0)) (x3 (ix3 b t 2)) := by
  rw [val_main_v85_apply, val_main_v83_apply, val_main_v82_apply, val_main_v72_apply]
  have e : idx_main_v72 (idx_main_v82 (idx_main_v83 (idx_main_v85 (ix3 b q t)))) = ix3 b t 0 :=
    funext fun a => Fin.ext (by
      have hb := b.isLt; have ht := t.isLt
      match a with
      | ⟨0, _⟩ => show ((b.val * 1 + 0) * 200 + t.val) / 200 = b.val; omega
      | ⟨1, _⟩ => show ((b.val * 1 + 0) * 200 + t.val) / 1 % 200 = t.val; omega
      | ⟨2, _⟩ => rfl)
  rw [e]; exact c71_0 x3 b t

private theorem e94 (x3 : (⟨S512x200x4, .f32⟩ : BufTy).Contents (Elt Ideal)) (b : Fin 512) (q : Fin 300) (t : Fin 200) :
    val_main_v94 (F := Ideal) x3 (ix3 b q t) = hi (x3 (ix3 b t 1)) (x3 (ix3 b t 3)) := by
  rw [val_main_v94_apply, val_main_v92_apply, val_main_v91_apply, val_main_v72_apply]
  have e : idx_main_v72 (idx_main_v91 (idx_main_v92 (idx_main_v94 (ix3 b q t)))) = ix3 b t 3 :=
    funext fun a => Fin.ext (by
      have hb := b.isLt; have ht := t.isLt
      match a with
      | ⟨0, _⟩ => show ((b.val * 1 + 0) * 200 + t.val) / 200 = b.val; omega
      | ⟨1, _⟩ => show ((b.val * 1 + 0) * 200 + t.val) / 1 % 200 = t.val; omega
      | ⟨2, _⟩ => rfl)
  rw [e]; exact c71_3 x3 b t

private theorem e101 (x3 : (⟨S512x200x4, .f32⟩ : BufTy).Contents (Elt Ideal)) (b : Fin 512) (q : Fin 300) (t : Fin 200) :
    val_main_v101 (F := Ideal) x3 (ix3 b q t) = lo (x3 (ix3 b t 1)) (x3 (ix3 b t 3)) := by
  rw [val_main_v101_apply, val_main_v99_apply, val_main_v98_apply, val_main_v72_apply]
  have e : idx_main_v72 (idx_main_v98 (idx_main_v99 (idx_main_v101 (ix3 b q t)))) = ix3 b t 1 :=
    funext fun a => Fin.ext (by
      have hb := b.isLt; have ht := t.isLt
      match a with
      | ⟨0, _⟩ => show ((b.val * 1 + 0) * 200 + t.val) / 200 = b.val; omega
      | ⟨1, _⟩ => show ((b.val * 1 + 0) * 200 + t.val) / 1 % 200 = t.val; omega
      | ⟨2, _⟩ => rfl)
  rw [e]; exact c71_1 x3 b t

private theorem e142 (x3 : (⟨S512x200x4, .f32⟩ : BufTy).Contents (Elt Ideal)) (b : Fin 512) (q : Fin 300) (t : Fin 200) :
    val_main_v142 (F := Ideal) x3 (ix3 b q t) = hi (x3 (ix3 b t 0)) (x3 (ix3 b t 2)) := by
  rw [val_main_v142_apply, val_main_v140_apply, val_main_v139_apply, val_main_v72_apply]
  have e : idx_main_v72 (idx_main_v139 (idx_main_v140 (idx_main_v142 (ix3 b q t)))) = ix3 b t 2 :=
    funext fun a => Fin.ext (by
      have hb := b.isLt; have ht := t.isLt
      match a with
      | ⟨0, _⟩ => show ((b.val * 1 + 0) * 200 + t.val) / 200 = b.val; omega
      | ⟨1, _⟩ => show ((b.val * 1 + 0) * 200 + t.val) / 1 % 200 = t.val; omega
      | ⟨2, _⟩ => rfl)
  rw [e]; exact c71_2 x3 b t

private theorem e149 (x3 : (⟨S512x200x4, .f32⟩ : BufTy).Contents (Elt Ideal)) (b : Fin 512) (q : Fin 300) (t : Fin 200) :
    val_main_v149 (F := Ideal) x3 (ix3 b q t) = lo (x3 (ix3 b t 0)) (x3 (ix3 b t 2)) := by
  rw [val_main_v149_apply, val_main_v147_apply, val_main_v146_apply, val_main_v72_apply]
  have e : idx_main_v72 (idx_main_v146 (idx_main_v147 (idx_main_v149 (ix3 b q t)))) = ix3 b t 0 :=
    funext fun a => Fin.ext (by
      have hb := b.isLt; have ht := t.isLt
      match a with
      | ⟨0, _⟩ => show ((b.val * 1 + 0) * 200 + t.val) / 200 = b.val; omega
      | ⟨1, _⟩ => show ((b.val * 1 + 0) * 200 + t.val) / 1 % 200 = t.val; omega
      | ⟨2, _⟩ => rfl)
  rw [e]; exact c71_0 x3 b t

private theorem e158 (x3 : (⟨S512x200x4, .f32⟩ : BufTy).Contents (Elt Ideal)) (b : Fin 512) (q : Fin 300) (t : Fin 200) :
    val_main_v158 (F := Ideal) x3 (ix3 b q t) = hi (x3 (ix3 b t 1)) (x3 (ix3 b t 3)) := by
  rw [val_main_v158_apply, val_main_v156_apply, val_main_v155_apply, val_main_v72_apply]
  have e : idx_main_v72 (idx_main_v155 (idx_main_v156 (idx_main_v158 (ix3 b q t)))) = ix3 b t 3 :=
    funext fun a => Fin.ext (by
      have hb := b.isLt; have ht := t.isLt
      match a with
      | ⟨0, _⟩ => show ((b.val * 1 + 0) * 200 + t.val) / 200 = b.val; omega
      | ⟨1, _⟩ => show ((b.val * 1 + 0) * 200 + t.val) / 1 % 200 = t.val; omega
      | ⟨2, _⟩ => rfl)
  rw [e]; exact c71_3 x3 b t

private theorem e165 (x3 : (⟨S512x200x4, .f32⟩ : BufTy).Contents (Elt Ideal)) (b : Fin 512) (q : Fin 300) (t : Fin 200) :
    val_main_v165 (F := Ideal) x3 (ix3 b q t) = lo (x3 (ix3 b t 1)) (x3 (ix3 b t 3)) := by
  rw [val_main_v165_apply, val_main_v163_apply, val_main_v162_apply, val_main_v72_apply]
  have e : idx_main_v72 (idx_main_v162 (idx_main_v163 (idx_main_v165 (ix3 b q t)))) = ix3 b t 1 :=
    funext fun a => Fin.ext (by
      have hb := b.isLt; have ht := t.isLt
      match a with
      | ⟨0, _⟩ => show ((b.val * 1 + 0) * 200 + t.val) / 200 = b.val; omega
      | ⟨1, _⟩ => show ((b.val * 1 + 0) * 200 + t.val) / 1 % 200 = t.val; omega
      | ⟨2, _⟩ => rfl)
  rw [e]; exact c71_1 x3 b t

private theorem e120 (x3 : (⟨S512x200x4, .f32⟩ : BufTy).Contents (Elt Ideal)) (b : Fin 512) (t : Fin 200) :
    val_main_v120 (F := Ideal) x3 (ix3 b 0 t) = hi (x3 (ix3 b t 0)) (x3 (ix3 b t 2)) := by
  rw [val_main_v120_apply, val_main_v119_apply, val_main_v72_apply]
  have e : idx_main_v72 (idx_main_v119 (idx_main_v120 (ix3 b (0 : Fin 1) t))) = ix3 b t 2 :=
    funext fun a => Fin.ext (by
      have hb := b.isLt; have ht := t.isLt
      match a with
      | ⟨0, _⟩ => show ((b.val * 1 + 0) * 200 + t.val) / 200 = b.val; omega
      | ⟨1, _⟩ => show ((b.val * 1 + 0) * 200 + t.val) / 1 % 200 = t.val; omega
      | ⟨2, _⟩ => rfl)
  rw [e]; exact c71_2 x3 b t

private theorem e122 (x3 : (⟨S512x200x4, .f32⟩ : BufTy).Contents (Elt Ideal)) (b : Fin 512) (t : Fin 200) :
    val_main_v122 (F := Ideal) x3 (ix3 b 0 t) = lo (x3 (ix3 b t 0)) (x3 (ix3 b t 2)) := by
  rw [val_main_v122_apply, val_main_v121_apply, val_main_v72_apply]
  have e : idx_main_v72 (idx_main_v121 (idx_main_v122 (ix3 b (0 : Fin 1) t))) = ix3 b t 0 :=
    funext fun a => Fin.ext (by
      have hb := b.isLt; have ht := t.isLt
      match a with
      | ⟨0, _⟩ => show ((b.val * 1 + 0) * 200 + t.val) / 200 = b.val; omega
      | ⟨1, _⟩ => show ((b.val * 1 + 0) * 200 + t.val) / 1 % 200 = t.val; omega
      | ⟨2, _⟩ => rfl)
  rw [e]; exact c71_0 x3 b t

private theorem e126 (x3 : (⟨S512x200x4, .f32⟩ : BufTy).Contents (Elt Ideal)) (b : Fin 512) (t : Fin 200) :
    val_main_v126 (F := Ideal) x3 (ix3 b 0 t) = hi (x3 (ix3 b t 1)) (x3 (ix3 b t 3)) := by
  rw [val_main_v126_apply, val_main_v125_apply, val_main_v72_apply]
  have e : idx_main_v72 (idx_main_v125 (idx_main_v126 (ix3 b (0 : Fin 1) t))) = ix3 b t 3 :=
    funext fun a => Fin.ext (by
      have hb := b.isLt; have ht := t.isLt
      match a with
      | ⟨0, _⟩ => show ((b.val * 1 + 0) * 200 + t.val) / 200 = b.val; omega
      | ⟨1, _⟩ => show ((b.val * 1 + 0) * 200 + t.val) / 1 % 200 = t.val; omega
      | ⟨2, _⟩ => rfl)
  rw [e]; exact c71_3 x3 b t

private theorem e128 (x3 : (⟨S512x200x4, .f32⟩ : BufTy).Contents (Elt Ideal)) (b : Fin 512) (t : Fin 200) :
    val_main_v128 (F := Ideal) x3 (ix3 b 0 t) = lo (x3 (ix3 b t 1)) (x3 (ix3 b t 3)) := by
  rw [val_main_v128_apply, val_main_v127_apply, val_main_v72_apply]
  have e : idx_main_v72 (idx_main_v127 (idx_main_v128 (ix3 b (0 : Fin 1) t))) = ix3 b t 1 :=
    funext fun a => Fin.ext (by
      have hb := b.isLt; have ht := t.isLt
      match a with
      | ⟨0, _⟩ => show ((b.val * 1 + 0) * 200 + t.val) / 200 = b.val; omega
      | ⟨1, _⟩ => show ((b.val * 1 + 0) * 200 + t.val) / 1 % 200 = t.val; omega
      | ⟨2, _⟩ => rfl)
  rw [e]; exact c71_1 x3 b t

/-! ## The clips: the maximum with the zero word, the zero first -/

private theorem clip88 (x1 : (⟨S512x300x4, .f32⟩ : BufTy).Contents (Elt Ideal)) (x3 : (⟨S512x200x4, .f32⟩ : BufTy).Contents (Elt Ideal)) (i : S512x300x200.Idx) :
    val_main_v88 (F := Ideal) x1 x3 i = clip0 (val_main_v87 (F := Ideal) x1 x3 i) := by
  rw [val_main_v88_apply, val_main_call1_v1_apply, val_main_call1_v0_apply, val_main_cst_11_apply]
  exact max_comm _ _

private theorem clip104 (x1 : (⟨S512x300x4, .f32⟩ : BufTy).Contents (Elt Ideal)) (x3 : (⟨S512x200x4, .f32⟩ : BufTy).Contents (Elt Ideal)) (i : S512x300x200.Idx) :
    val_main_v104 (F := Ideal) x1 x3 i = clip0 (val_main_v103 (F := Ideal) x1 x3 i) := by
  rw [val_main_v104_apply, val_main_call2_v1_apply, val_main_call2_v0_apply, val_main_cst_12_apply]
  exact max_comm _ _

private theorem clip111 (x1 : (⟨S512x300x4, .f32⟩ : BufTy).Contents (Elt Ideal)) (i : S512x300x1.Idx) :
    val_main_v111 (F := Ideal) x1 i = clip0 (val_main_v110 (F := Ideal) x1 i) := by
  rw [val_main_v111_apply, val_main_call3_v1_apply, val_main_call3_v0_apply, val_main_cst_13_apply]
  exact max_comm _ _

private theorem clip117 (x1 : (⟨S512x300x4, .f32⟩ : BufTy).Contents (Elt Ideal)) (i : S512x300x1.Idx) :
    val_main_v117 (F := Ideal) x1 i = clip0 (val_main_v116 (F := Ideal) x1 i) := by
  rw [val_main_v117_apply, val_main_call4_v1_apply, val_main_call4_v0_apply, val_main_cst_14_apply]
  exact max_comm _ _

private theorem clip124 (x3 : (⟨S512x200x4, .f32⟩ : BufTy).Contents (Elt Ideal)) (i : S512x1x200.Idx) :
    val_main_v124 (F := Ideal) x3 i = clip0 (val_main_v123 (F := Ideal) x3 i) := by
  rw [val_main_v124_apply, val_main_call5_v1_apply, val_main_call5_v0_apply, val_main_cst_15_apply]
  exact max_comm _ _

private theorem clip130 (x3 : (⟨S512x200x4, .f32⟩ : BufTy).Contents (Elt Ideal)) (i : S512x1x200.Idx) :
    val_main_v130 (F := Ideal) x3 i = clip0 (val_main_v129 (F := Ideal) x3 i) := by
  rw [val_main_v130_apply, val_main_call6_v1_apply, val_main_call6_v0_apply, val_main_cst_16_apply]
  exact max_comm _ _

private theorem clip152 (x1 : (⟨S512x300x4, .f32⟩ : BufTy).Contents (Elt Ideal)) (x3 : (⟨S512x200x4, .f32⟩ : BufTy).Contents (Elt Ideal)) (i : S512x300x200.Idx) :
    val_main_v152 (F := Ideal) x1 x3 i = clip0 (val_main_v151 (F := Ideal) x1 x3 i) := by
  rw [val_main_v152_apply, val_main_call7_v1_apply, val_main_call7_v0_apply, val_main_cst_17_apply]
  exact max_comm _ _

private theorem clip168 (x1 : (⟨S512x300x4, .f32⟩ : BufTy).Contents (Elt Ideal)) (x3 : (⟨S512x200x4, .f32⟩ : BufTy).Contents (Elt Ideal)) (i : S512x300x200.Idx) :
    val_main_v168 (F := Ideal) x1 x3 i = clip0 (val_main_v167 (F := Ideal) x1 x3 i) := by
  rw [val_main_v168_apply, val_main_call8_v1_apply, val_main_call8_v0_apply, val_main_cst_18_apply]
  exact max_comm _ _

/-! ## The named quantities at one (query, target) pair -/

private theorem inter_at (x1 : (⟨S512x300x4, .f32⟩ : BufTy).Contents (Elt Ideal)) (x3 : (⟨S512x200x4, .f32⟩ : BufTy).Contents (Elt Ideal)) (b : Fin 512) (q : Fin 300) (t : Fin 200) :
    val_main_v105 (F := Ideal) x1 x3 (ix3 b q t) = inter (fun k => x1 (ix3 b q k)) (fun k => x3 (ix3 b t k)) := by
  rw [val_main_v105_apply, clip88, clip104, val_main_v87_apply, val_main_v103_apply, val_main_v79_apply, val_main_v86_apply,
    val_main_v95_apply, val_main_v102_apply, e77, e78, e84, e85, e93, e94, e100, e101]
  rfl

private theorem areaP_at (x1 : (⟨S512x300x4, .f32⟩ : BufTy).Contents (Elt Ideal)) (b : Fin 512) (q : Fin 300) (t : Fin 200) :
    val_main_v132 (F := Ideal) x1 (ix3 b q t) = area (fun k => x1 (ix3 b q k)) := by
  rw [val_main_v132_apply]
  have e : idx_main_v132 (ix3 b q t) = ix3 b q 0 :=
    funext fun a => match a with | ⟨0, _⟩ => rfl | ⟨1, _⟩ => rfl | ⟨2, _⟩ => rfl
  rw [e, val_main_v118_apply, clip111, clip117, val_main_v110_apply, val_main_v116_apply, e107, e109, e113, e115]
  rfl

private theorem areaT_at (x3 : (⟨S512x200x4, .f32⟩ : BufTy).Contents (Elt Ideal)) (b : Fin 512) (q : Fin 300) (t : Fin 200) :
    val_main_v133 (F := Ideal) x3 (ix3 b q t) = area (fun k => x3 (ix3 b t k)) := by
  rw [val_main_v133_apply]
  have e : idx_main_v133 (ix3 b q t) = ix3 b 0 t :=
    funext fun a => match a with | ⟨0, _⟩ => rfl | ⟨1, _⟩ => rfl | ⟨2, _⟩ => rfl
  rw [e, val_main_v131_apply, clip124, clip130, val_main_v123_apply, val_main_v129_apply, e120, e122, e126, e128]
  rfl

private theorem union_at (x1 : (⟨S512x300x4, .f32⟩ : BufTy).Contents (Elt Ideal)) (x3 : (⟨S512x200x4, .f32⟩ : BufTy).Contents (Elt Ideal)) (b : Fin 512) (q : Fin 300) (t : Fin 200) :
    val_main_v135 (F := Ideal) x1 x3 (ix3 b q t) = union (fun k => x1 (ix3 b q k)) (fun k => x3 (ix3 b t k)) := by
  rw [val_main_v135_apply, val_main_v134_apply, areaP_at, areaT_at, inter_at]
  rfl

private theorem enc_at (x1 : (⟨S512x300x4, .f32⟩ : BufTy).Contents (Elt Ideal)) (x3 : (⟨S512x200x4, .f32⟩ : BufTy).Contents (Elt Ideal)) (b : Fin 512) (q : Fin 300) (t : Fin 200) :
    val_main_v169 (F := Ideal) x1 x3 (ix3 b q t) = enc (fun k => x1 (ix3 b q k)) (fun k => x3 (ix3 b t k)) := by
  rw [val_main_v169_apply, clip152, clip168, val_main_v151_apply, val_main_v167_apply, val_main_v143_apply, val_main_v150_apply,
    val_main_v159_apply, val_main_v166_apply, e141, e142, e148, e149, e157, e158, e164, e165]
  rfl

/-! ## The overlap term -/

theorem giou_at (x1 : (⟨S512x300x4, .f32⟩ : BufTy).Contents (Elt Ideal)) (x3 : (⟨S512x200x4, .f32⟩ : BufTy).Contents (Elt Ideal))
    (b : Fin 512) (q : Fin 300) (t : Fin 200) :
    val_main_v173 (F := Ideal) x1 x3 (ix3 b q t)
      = -(giou (fun k => x1 (ix3 b q k)) (fun k => x3 (ix3 b t k))) := by
  rw [val_main_v173_apply, val_main_v172_apply, val_main_v136_apply, val_main_v171_apply, val_main_v170_apply,
    inter_at, union_at, enc_at]
  rfl

end Cert.RefGiou

end
-- ==== Proof.RefCost.lean ====
/-
  The reference's result is the cost array, for labels in range.
-/
import proofs.«421009_j25984552141569_1_alg».proof.Proof.RefClass
import proofs.«421009_j25984552141569_1_alg».proof.Proof.RefBBox
import proofs.«421009_j25984552141569_1_alg».proof.Proof.RefGiou

noncomputable section

namespace Cert.RefCost

open Cert.ReferenceIdeal Cert.ReferenceIdeal.ReadP Cert.CostSpec Idealize.ShloMosaic Idealize.ShloMosaic.ValueIdx

theorem ref_eq_G (x0 : (⟨S512x300x80, .f32⟩ : BufTy).Contents (Elt Ideal)) (x1 : (⟨S512x300x4, .f32⟩ : BufTy).Contents (Elt Ideal))
    (x2 : (⟨S512x200, .i32⟩ : BufTy).Contents (Elt Ideal)) (x3 : (⟨S512x200x4, .f32⟩ : BufTy).Contents (Elt Ideal))
    (hl : ∀ i, (x2 i).toNat < 80) :
    val_main_v181 (F := Ideal) x0 x1 x2 x3 = G x0 x1 x2 x3 := by
  funext j
  obtain ⟨b, q, t, rfl⟩ : ∃ (b : Fin 512) (q : Fin 300) (t : Fin 200), j = ix3 b q t := ⟨j 0, j 1, j 2, eq_ix3 j⟩
  -- the last eight operations: three literal factors, two sums
  rw [G_ix3, val_main_v181_apply, val_main_v178_apply, val_main_v175_apply, val_main_v177_apply, val_main_v180_apply,
    val_main_v174_apply, val_main_v176_apply, val_main_v179_apply, val_main_cst_19_apply, val_main_cst_20_apply,
    val_main_cst_21_apply, Cert.RefClass.class_at x0 x2 hl b q t, Cert.RefBBox.bbox_at x1 x3 b q t,
    Cert.RefGiou.giou_at x1 x3 b q t]
  -- the specification's spellings: the label's entry for the contraction, a negation for `0 − ·`, the sum from zero for
  -- the four terms
  unfold costAt cost
  rw [classPick_eq _ _ (hl _), cZero_sub, cZero_sub, l1_eq_sum]
  rfl

end Cert.RefCost

end
-- ==== Proof.KernelPayload.lean ====
/-
  What the kernel's body leaves in its output block, at an element of the block: the pair's cost, of the block's rows.
-/
import proofs.«421009_j25984552141569_1_alg».proof.Proof.Gen.KernelIdeal.Frame
import proofs.«421009_j25984552141569_1_alg».proof.Proof.CostSpec
import Idealize.ShloMosaic.Lib.Pipeline.Value

noncomputable section

namespace Cert.KernelPayload

open Cert.KernelIdeal Cert.KernelIdeal.Gen Cert.CostSpec Idealize.ShloMosaic Idealize.ShloMosaic.ValueIdx

/-! ## The layout operations read at an element -/

/-- A column of shape [8,300,1] spread along the last axis reads its one entry of the row. -/
private theorem bcol (v : FVec Ideal S8x300x1 .f32) (bb : Fin 8) (q : Fin 300) (t : Fin 200) :
    broadcastTo S8x300x200 v broadcasts_S8x300x1_S8x300x200 (ix3 bb q t) = v (ix3 bb q (0 : Fin 1)) :=
  broadcastTo_apply v _ _ _ (fun a => by match a with | ⟨0, _⟩ => rfl | ⟨1, _⟩ => rfl | ⟨2, _⟩ => rfl)

/-- A row of shape [8,1,200] spread along the middle axis reads its one entry of the column. -/
private theorem brow (v : FVec Ideal S8x1x200 .f32) (bb : Fin 8) (q : Fin 300) (t : Fin 200) :
    broadcastTo S8x300x200 v broadcasts_S8x1x200_S8x300x200 (ix3 bb q t) = v (ix3 bb (0 : Fin 1) t) :=
  broadcastTo_apply v _ _ _ (fun a => by match a with | ⟨0, _⟩ => rfl | ⟨1, _⟩ => rfl | ⟨2, _⟩ => rfl)

/-- The four coordinate columns of the predicted boxes. -/
private theorem pay4_at (x1 : Vec Ideal S8x300x4 .f32) (bb : Fin 8) (q : Fin 300) :
    k0_pay4 x1 (ix3 bb q (0 : Fin 1)) = x1 (ix3 bb q (0 : Fin 4)) := by
  unfold k0_pay4
  exact extractStridedSlice_apply _ _ _ _ _ (fun a => by
    match a with | ⟨0, _⟩ => exact (Nat.zero_add _).symm | ⟨1, _⟩ => exact (Nat.zero_add _).symm | ⟨2, _⟩ => rfl)
private theorem pay5_at (x1 : Vec Ideal S8x300x4 .f32) (bb : Fin 8) (q : Fin 300) :
    k0_pay5 x1 (ix3 bb q (0 : Fin 1)) = x1 (ix3 bb q (1 : Fin 4)) := by
  unfold k0_pay5
  exact extractStridedSlice_apply _ _ _ _ _ (fun a => by
    match a with | ⟨0, _⟩ => exact (Nat.zero_add _).symm | ⟨1, _⟩ => exact (Nat.zero_add _).symm | ⟨2, _⟩ => rfl)
private theorem pay6_at (x1 : Vec Ideal S8x300x4 .f32) (bb : Fin 8) (q : Fin 300) :
    k0_pay6 x1 (ix3 bb q (0 : Fin 1)) = x1 (ix3 bb q (2 : Fin 4)) := by
  unfold k0_pay6
  exact extractStridedSlice_apply _ _ _ _ _ (fun a => by
    match a with | ⟨0, _⟩ => exact (Nat.zero_add _).symm | ⟨1, _⟩ => exact (Nat.zero_add _).symm | ⟨2, _⟩ => rfl)
private theorem pay7_at (x1 : Vec Ideal S8x300x4 .f32) (bb : Fin 8) (q : Fin 300) :
    k0_pay7 x1 (ix3 bb q (0 : Fin 1)) = x1 (ix3 bb q (3 : Fin 4)) := by
  unfold k0_pay7
  exact extractStridedSlice_apply _ _ _ _ _ (fun a => by
    match a with | ⟨0, _⟩ => exact (Nat.zero_add _).symm | ⟨1, _⟩ => exact (Nat.zero_add _).symm | ⟨2, _⟩ => rfl)

/-- The cast of the target boxes to their own shape changes nothing. -/
private theorem pay2_eq (x3 : Vec Ideal S8x4x200 .f32) : k0_pay2 x3 = x3 := shapeCast_self _ _

/-- The four coordinate rows of the target boxes. -/
private theorem pay8_at (x3 : Vec Ideal S8x4x200 .f32) (bb : Fin 8) (t : Fin 200) :
    k0_pay8 x3 (ix3 bb (0 : Fin 1) t) = x3 (ix3 bb (0 : Fin 4) t) := by
  unfold k0_pay8; rw [pay2_eq]
  exact extractStridedSlice_apply _ _ _ _ _ (fun a => by
    match a with | ⟨0, _⟩ => exact (Nat.zero_add _).symm | ⟨1, _⟩ => rfl | ⟨2, _⟩ => exact (Nat.zero_add _).symm)
private theorem pay9_at (x3 : Vec Ideal S8x4x200 .f32) (bb : Fin 8) (t : Fin 200) :
    k0_pay9 x3 (ix3 bb (0 : Fin 1) t) = x3 (ix3 bb (1 : Fin 4) t) := by
  unfold k0_pay9; rw [pay2_eq]
  exact extractStridedSlice_apply _ _ _ _ _ (fun a => by
    match a with | ⟨0, _⟩ => exact (Nat.zero_add _).symm | ⟨1, _⟩ => rfl | ⟨2, _⟩ => exact (Nat.zero_add _).symm)
private theorem pay10_at (x3 : Vec Ideal S8x4x200 .f32) (bb : Fin 8) (t : Fin 200) :
    k0_pay10 x3 (ix3 bb (0 : Fin 1) t) = x3 (ix3 bb (2 : Fin 4) t) := by
  unfold k0_pay10; rw [pay2_eq]
  exact extractStridedSlice_apply _ _ _ _ _ (fun a => by
    match a with | ⟨0, _⟩ => exact (Nat.zero_add _).symm | ⟨1, _⟩ => rfl | ⟨2, _⟩ => exact (Nat.zero_add _).symm)
private theorem pay11_at (x3 : Vec Ideal S8x4x200 .f32) (bb : Fin 8) (t : Fin 200) :
    k0_pay11 x3 (ix3 bb (0 : Fin 1) t) = x3 (ix3 bb (3 : Fin 4) t) := by
  unfold k0_pay11; rw [pay2_eq]
  exact extractStridedSlice_apply _ _ _ _ _ (fun a => by
    match a with | ⟨0, _⟩ => exact (Nat.zero_add _).symm | ⟨1, _⟩ => rfl | ⟨2, _⟩ => exact (Nat.zero_add _).symm)

/-! ## The pointwise payloads at an element -/

private theorem pay15_at (v25 v27 : FVec Ideal S8x300x1 .f32) (i : S8x300x1.Idx) :
    k0_pay15 v25 v27 i = lo (v25 i) (v27 i) := rfl
private theorem pay16_at (v26 v28 : FVec Ideal S8x300x1 .f32) (i : S8x300x1.Idx) :
    k0_pay16 v26 v28 i = lo (v26 i) (v28 i) := rfl
private theorem pay17_at (v25 v27 : FVec Ideal S8x300x1 .f32) (i : S8x300x1.Idx) :
    k0_pay17 v25 v27 i = hi (v25 i) (v27 i) := rfl
private theorem pay18_at (v26 v28 : FVec Ideal S8x300x1 .f32) (i : S8x300x1.Idx) :
    k0_pay18 v26 v28 i = hi (v26 i) (v28 i) := rfl
private theorem pay19_at (v29 v31 : FVec Ideal S8x1x200 .f32) (i : S8x1x200.Idx) :
    k0_pay19 v29 v31 i = lo (v29 i) (v31 i) := rfl
private theorem pay20_at (v30 v32 : FVec Ideal S8x1x200 .f32) (i : S8x1x200.Idx) :
    k0_pay20 v30 v32 i = lo (v30 i) (v32 i) := rfl
private theorem pay21_at (v29 v31 : FVec Ideal S8x1x200 .f32) (i : S8x1x200.Idx) :
    k0_pay21 v29 v31 i = hi (v29 i) (v31 i) := rfl
private theorem pay22_at (v30 v32 : FVec Ideal S8x1x200 .f32) (i : S8x1x200.Idx) :
    k0_pay22 v30 v32 i = hi (v30 i) (v32 i) := rfl

private theorem pay23_at (v25 v27 : FVec Ideal S8x300x1 .f32) (v29 v31 : FVec Ideal S8x1x200 .f32)
    (bb : Fin 8) (q : Fin 300) (t : Fin 200) :
    k0_pay23 v25 v27 v29 v31 (ix3 bb q t)
      = clip0 (min (hi (v25 (ix3 bb q (0 : Fin 1))) (v27 (ix3 bb q (0 : Fin 1))))
                   (hi (v29 (ix3 bb (0 : Fin 1) t)) (v31 (ix3 bb (0 : Fin 1) t)))
               - max (lo (v25 (ix3 bb q (0 : Fin 1))) (v27 (ix3 bb q (0 : Fin 1))))
                     (lo (v29 (ix3 bb (0 : Fin 1) t)) (v31 (ix3 bb (0 : Fin 1) t)))) := by
  unfold k0_pay23
  simp only [maximumf_apply, minimumf_apply, subf_apply, bcol, brow, pay15_at, pay17_at, pay19_at, pay21_at]
  rfl

private theorem pay24_at (v26 v28 : FVec Ideal S8x300x1 .f32) (v30 v32 : FVec Ideal S8x1x200 .f32)
    (bb : Fin 8) (q : Fin 300) (t : Fin 200) :
    k0_pay24 v26 v28 v30 v32 (ix3 bb q t)
      = min (hi (v26 (ix3 bb q (0 : Fin 1))) (v28 (ix3 bb q (0 : Fin 1))))
            (hi (v30 (ix3 bb (0 : Fin 1) t)) (v32 (ix3 bb (0 : Fin 1) t)))
          - max (lo (v26 (ix3 bb q (0 : Fin 1))) (v28 (ix3 bb q (0 : Fin 1))))
                (lo (v30 (ix3 bb (0 : Fin 1) t)) (v32 (ix3 bb (0 : Fin 1) t))) := by
  unfold k0_pay24
  simp only [maximumf_apply, minimumf_apply, subf_apply, bcol, brow, pay16_at, pay18_at, pay20_at, pay22_at]

private theorem pay25_at (i : S8x300x200.Idx) : k0_pay25 (F := Ideal) i = cZero := rfl

/-- The first two terms of the coordinate distance. -/
private theorem pay12_at (x1 : Vec Ideal S8x300x4 .f32) (x3 : Vec Ideal S8x4x200 .f32)
    (bb : Fin 8) (q : Fin 300) (t : Fin 200) :
    k0_pay12 x1 x3 (ix3 bb q t)
      = absE (x1 (ix3 bb q (0 : Fin 4)) - x3 (ix3 bb (0 : Fin 4) t))
        + absE (x1 (ix3 bb q (1 : Fin 4)) - x3 (ix3 bb (1 : Fin 4) t)) := by
  unfold k0_pay12
  simp only [addf_apply, subf_apply, absf, bcol, brow, pay4_at, pay5_at, pay8_at, pay9_at]
  rfl

private theorem pay13_at (x1 : Vec Ideal S8x300x4 .f32) (bb : Fin 8) (q : Fin 300) (t : Fin 200) :
    k0_pay13 x1 (ix3 bb q t) = x1 (ix3 bb q (2 : Fin 4)) := by
  unfold k0_pay13
  rw [bcol, pay6_at]

/-- The coordinate distance from its first two terms. -/
private theorem pay14_at (v28 : FVec Ideal S8x300x1 .f32) (v31 v32 : FVec Ideal S8x1x200 .f32)
    (v41 v42 : FVec Ideal S8x300x200 .f32) (bb : Fin 8) (q : Fin 300) (t : Fin 200) :
    k0_pay14 v28 v31 v32 v41 v42 (ix3 bb q t)
      = (v41 (ix3 bb q t) + absE (v42 (ix3 bb q t) - v31 (ix3 bb (0 : Fin 1) t)))
        + absE (v28 (ix3 bb q (0 : Fin 1)) - v32 (ix3 bb (0 : Fin 1) t)) := by
  unfold k0_pay14
  simp only [addf_apply, subf_apply, absf, bcol, brow]
  rfl

private theorem pay27_at (v24 v51 : FVec Ideal S8x300x200 .f32) (i : S8x300x200.Idx) :
    k0_pay27 v24 v51 i = cOne * v24 i + cFive * v51 i := rfl

private theorem pay1_at (v137 v142 : FVec Ideal S8x300x200 .f32) (c : Ideal .f32) (i : S8x300x200.Idx) :
    k0_pay1 v137 v142 c i = v142 i + c * v137 i := rfl

/-- The generalised intersection-over-union, negated, from the corners and the two clipped extents of the intersection. -/
private theorem pay26_at (v54 v57 v60 v63 : FVec Ideal S8x300x1 .f32) (v66 v69 v72 v75 : FVec Ideal S8x1x200 .f32)
    (v84 v91 v92 : FVec Ideal S8x300x200 .f32) (bb : Fin 8) (q : Fin 300) (t : Fin 200) :
    k0_pay26 v54 v57 v60 v63 v66 v69 v72 v75 v84 v91 v92 (ix3 bb q t)
      = cZero -
        (Ideal.div (v84 (ix3 bb q t) * max (v91 (ix3 bb q t)) (v92 (ix3 bb q t)))
            ((clip0 (v60 (ix3 bb q (0 : Fin 1)) - v54 (ix3 bb q (0 : Fin 1))) * clip0 (v63 (ix3 bb q (0 : Fin 1)) - v57 (ix3 bb q (0 : Fin 1)))
                + clip0 (v72 (ix3 bb (0 : Fin 1) t) - v66 (ix3 bb (0 : Fin 1) t)) * clip0 (v75 (ix3 bb (0 : Fin 1) t) - v69 (ix3 bb (0 : Fin 1) t)))
              - v84 (ix3 bb q t) * max (v91 (ix3 bb q t)) (v92 (ix3 bb q t)))
          - Ideal.div
              (clip0 (max (v60 (ix3 bb q (0 : Fin 1))) (v72 (ix3 bb (0 : Fin 1) t)) - min (v54 (ix3 bb q (0 : Fin 1))) (v66 (ix3 bb (0 : Fin 1) t)))
                  * clip0 (max (v63 (ix3 bb q (0 : Fin 1))) (v75 (ix3 bb (0 : Fin 1) t)) - min (v57 (ix3 bb q (0 : Fin 1))) (v69 (ix3 bb (0 : Fin 1) t)))
                - ((clip0 (v60 (ix3 bb q (0 : Fin 1)) - v54 (ix3 bb q (0 : Fin 1))) * clip0 (v63 (ix3 bb q (0 : Fin 1)) - v57 (ix3 bb q (0 : Fin 1)))
                    + clip0 (v72 (ix3 bb (0 : Fin 1) t) - v66 (ix3 bb (0 : Fin 1) t)) * clip0 (v75 (ix3 bb (0 : Fin 1) t) - v69 (ix3 bb (0 : Fin 1) t)))
                  - v84 (ix3 bb q t) * max (v91 (ix3 bb q t)) (v92 (ix3 bb q t))))
              (clip0 (max (v60 (ix3 bb q (0 : Fin 1))) (v72 (ix3 bb (0 : Fin 1) t)) - min (v54 (ix3 bb q (0 : Fin 1))) (v66 (ix3 bb (0 : Fin 1) t)))
                  * clip0 (max (v63 (ix3 bb q (0 : Fin 1))) (v75 (ix3 bb (0 : Fin 1) t)) - min (v57 (ix3 bb q (0 : Fin 1))) (v69 (ix3 bb (0 : Fin 1) t))))) := by
  unfold k0_pay26
  simp only [subf_apply, divf_apply, mulf_apply, addf_apply, maximumf_apply, minimumf_apply, bcol, brow]
  rfl

/-! ## The class term: the softmax, the indicator, their contraction -/

/-- The index a reduction over the last axis inserts a class coordinate into. -/
private theorem lift_at (bb : Fin 8) (q : Fin 300) (c : Fin 80) :
    reduces_S8x300x80_S8x300.lift (ix2 bb q) c = ix3 bb q c := by
  funext a; apply Fin.ext
  match a with
  | ⟨0, _⟩ => rfl
  | ⟨1, _⟩ => rfl
  | ⟨2, _⟩ => rfl

/-- The row's maximum, folded from the word of minus infinity. -/
private theorem rowmax_at (v : FVec Ideal S8x300x80 .f32) (bb : Fin 8) (q : Fin 300) :
    multiReduction (F := Ideal) .maximumf [2] S8x300 v 0xFF800000#32 reduces_S8x300x80_S8x300 (.inl rfl) rfl (ix2 bb q)
      = rowMax (fun c => v (ix3 bb q c)) := by
  refine (Ideal.multiReduction_maximumf_single v _ reduces_S8x300x80_S8x300 (.inl rfl) rfl (ix2 bb q)).trans ?_
  unfold rowMax cNegInf
  refine congrArg (fun f : Fin 80 → EReal => (Finset.univ : Finset (Fin 80)).fold max (Ideal.ofBits .f32 0xFF800000#32) f) ?_
  funext c
  exact congrArg v (lift_at bb q c)

/-- The row's sum. -/
private theorem rowsum_at (v : FVec Ideal S8x300x80 .f32) (bb : Fin 8) (q : Fin 300) :
    multiReduction (F := Ideal) .add [2] S8x300 v 0x00000000#32 reduces_S8x300x80_S8x300 (.inl rfl) rfl (ix2 bb q)
      = ∑ k : Fin 80, v (ix3 bb q k) := by
  refine (Ideal.multiReduction_add_single v _ reduces_S8x300x80_S8x300 (.inl rfl) rfl (ix2 bb q)).trans ?_
  exact Finset.sum_congr rfl fun k _ => congrArg v (lift_at bb q k)

/-- A row statistic kept as a unit last axis and spread over the classes reads the row's entry. -/
private theorem keep_at (w : FVec Ideal S8x300 .f32) (bb : Fin 8) (q : Fin 300) (c : Fin 80) :
    broadcastTo S8x300x80 (shapeCast S8x300x1 w shapeCasts_S8x300_S8x300x1) broadcasts_S8x300x1_S8x300x80 (ix3 bb q c)
      = w (ix2 bb q) := by
  refine (broadcastTo_apply _ _ (ix3 bb q c) (ix3 bb q (0 : Fin 1)) (fun a => by
    match a with | ⟨0, _⟩ => rfl | ⟨1, _⟩ => rfl | ⟨2, _⟩ => rfl)).trans ?_
  refine shapeCast_apply w _ (ix3 bb q (0 : Fin 1)) (ix2 bb q) ?_
  rw [Shape.rowMajor_val_three, Shape.rowMajor_val_two]
  show bb.val * 300 + q.val = (bb.val * 300 + q.val) * 1 + 0
  omega

/-- The labels spread over the classes read the target's label. -/
private theorem blab (v : IVec S8x1x200 32) (bb : Fin 8) (c : Fin 80) (t : Fin 200) :
    broadcastTo S8x80x200 v broadcasts_S8x1x200_S8x80x200 (ix3 bb c t) = v (ix3 bb (0 : Fin 1) t) :=
  broadcastTo_apply v _ _ _ (fun a => by match a with | ⟨0, _⟩ => rfl | ⟨1, _⟩ => rfl | ⟨2, _⟩ => rfl)

/-- The class number along the middle axis. -/
private theorem iota_at (bb : Fin 8) (c : Fin 80) (t : Fin 200) :
    iota .tc S8x80x200 32 [1] iota_S8x80x200_d1_w32 (ix3 bb c t) = BitVec.ofNat 32 c.val :=
  iota_single_apply .tc S8x80x200 32 1 iota_S8x80x200_d1_w32 (ix3 bb c t)

/-- The indicator array at an element. -/
private theorem onehot_at (x2 : Vec Ideal S8x1x200 .i32) (bb : Fin 8) (c : Fin 80) (t : Fin 200) :
    (truncf .bf16 (sitofp (F := Ideal) .f32 (extui 32 (cmpi .eq (iota .tc S8x80x200 32 [1] iota_S8x80x200_d1_w32)
        (broadcastTo S8x80x200 (shapeCast S8x1x200 x2 shapeCasts_S8x1x200_S8x1x200) broadcasts_S8x1x200_S8x80x200)) natLt_1_32))
        bitsLt_bf16_f32 : FVec Ideal S8x80x200 .bf16) (ix3 bb c t)
      = oneHot c (x2 (ix3 bb (0 : Fin 1) t)) := by
  rw [shapeCast_self]
  show FloatOps.sitofp (F := Ideal) .f32 ((IntOp.cmpi .eq (iota .tc S8x80x200 32 [1] iota_S8x80x200_d1_w32 (ix3 bb c t))
      (broadcastTo S8x80x200 x2 broadcasts_S8x1x200_S8x80x200 (ix3 bb c t))).setWidth 32) = _
  rw [iota_at, blab]
  rfl

/-- The batched contraction over the classes, into a zero accumulator, at an element. -/
private theorem matmul_at (A : FVec Ideal S8x300x80 .bf16) (B : FVec Ideal S8x80x200 .bf16)
    (bb : Fin 8) (q : Fin 300) (t : Fin 200) :
    matmul dot_S8x300x80_S8x80x200_S8x300x200_2_1_1_2_0_0 none A B (constant (F := Ideal) S8x300x200 .f32 0x00000000#32) (ix3 bb q t)
      = ∑ c : Fin 80, A (ix3 bb q c) * B (ix3 bb c t) := by
  show FloatOps.matmul dot_S8x300x80_S8x80x200_S8x300x200_2_1_1_2_0_0 none A B (constant (F := Ideal) S8x300x200 .f32 0x00000000#32) (ix3 bb q t) = _
  rw [Ideal.matmul_constant_zero_apply,
    ← Equiv.sum_comp (contrEquiv1 dot_S8x300x80_S8x80x200_S8x300x200_2_1_1_2_0_0 80 rfl rfl).symm]
  refine Finset.sum_congr rfl fun c _ => ?_
  have c3 := contrEquiv1_symm_val dot_S8x300x80_S8x80x200_S8x300x200_2_1_1_2_0_0 80 rfl rfl c
  have l3 : dot_S8x300x80_S8x80x200_S8x300x200_2_1_1_2_0_0.lhsIdx (ix3 bb q t)
      ((contrEquiv1 dot_S8x300x80_S8x80x200_S8x300x200_2_1_1_2_0_0 80 rfl rfl).symm c) = ix3 bb q c := by
    funext ax; apply Fin.ext
    match ax with
    | ⟨0, _⟩ => simp [DotDims.lhsIdx, dot_S8x300x80_S8x80x200_S8x300x200_2_1_1_2_0_0]; rfl
    | ⟨1, _⟩ => simp [DotDims.lhsIdx, dot_S8x300x80_S8x80x200_S8x300x200_2_1_1_2_0_0]; rfl
    | ⟨2, _⟩ => simp [DotDims.lhsIdx, dot_S8x300x80_S8x80x200_S8x300x200_2_1_1_2_0_0]; exact c3
  have r3 : dot_S8x300x80_S8x80x200_S8x300x200_2_1_1_2_0_0.rhsIdx (ix3 bb q t)
      ((contrEquiv1 dot_S8x300x80_S8x80x200_S8x300x200_2_1_1_2_0_0 80 rfl rfl).symm c) = ix3 bb c t := by
    funext ax; apply Fin.ext
    match ax with
    | ⟨0, _⟩ => simp [DotDims.rhsIdx, dot_S8x300x80_S8x80x200_S8x300x200_2_1_1_2_0_0]; rfl
    | ⟨1, _⟩ => simp [DotDims.rhsIdx, dot_S8x300x80_S8x80x200_S8x300x200_2_1_1_2_0_0]; exact c3
    | ⟨2, _⟩ => simp [DotDims.rhsIdx, dot_S8x300x80_S8x80x200_S8x300x200_2_1_1_2_0_0]; rfl
  rw [l3, r3]

/-- The class term at an element: zero minus the softmax of the row contracted with the label's indicator. -/
private theorem pay3_at (x0 : Vec Ideal S8x300x80 .f32) (x2 : Vec Ideal S8x1x200 .i32)
    (bb : Fin 8) (q : Fin 300) (t : Fin 200) :
    k0_pay3 x0 x2 (ix3 bb q t)
      = cZero - classPick (fun c => x0 (ix3 bb q c)) (x2 (ix3 bb (0 : Fin 1) t)) := by
  unfold k0_pay3
  simp only [subf_apply, broadcast_apply]
  refine congrArg (fun s : EReal => cZero - s) ?_
  refine (matmul_at _ _ bb q t).trans ?_
  unfold classPick
  refine Finset.sum_congr rfl fun c _ => ?_
  rw [onehot_at]
  refine congrArg (fun s : EReal => s * oneHot c (x2 (ix3 bb (0 : Fin 1) t))) ?_
  simp only [truncf_apply, divf_apply, keep_at, exp, subf_apply]
  rw [rowsum_at]
  simp only [keep_at, exp, subf_apply]
  rw [rowmax_at x0 bb q]
  rfl

/-! ## The block's element -/

private theorem hz : (![0, 0, 0] : Fin 3 → Nat) = fun _ => 0 :=
  funext fun a => by match a with | ⟨0, _⟩ => rfl | ⟨1, _⟩ => rfl | ⟨2, _⟩ => rfl

theorem payload_at (x0 : Vec Ideal S8x300x80 .f32) (x1 : Vec Ideal S8x300x4 .f32) (x2 : Vec Ideal S8x1x200 .i32)
    (x3 : Vec Ideal S8x4x200 .f32) (bb : Fin 8) (q : Fin 300) (t : Fin 200) :
    out0_4 (F := Ideal) x0 x1 x2 x3 (ix3 bb q t)
      = cost (fun c => x0 (ix3 bb q c)) (x2 (ix3 bb (0 : Fin 1) t)) (fun k => x1 (ix3 bb q k)) (fun k => x3 (ix3 bb k t)) := by
  unfold out0_4
  rw [View.canon_unit_zero hz]
  simp only [View.ld_unit_zero (S := S8x300x80) hz, View.ld_unit_zero (S := S8x300x4) hz,
    View.ld_unit_zero (S := S8x1x200) hz, View.ld_unit_zero (S := S8x4x200) hz]
  rw [pay1_at, pay27_at, pay3_at, pay14_at, pay12_at, pay13_at, pay26_at, pay23_at, pay24_at, pay25_at]
  simp only [pay15_at, pay16_at, pay17_at, pay18_at, pay19_at, pay20_at, pay21_at, pay22_at,
    pay4_at, pay5_at, pay6_at, pay7_at, pay8_at, pay9_at, pay10_at, pay11_at]
  rfl

end Cert.KernelPayload

end
-- ==== Proof.KernelArray.lean ====
/-
  The kernel's run ends with its result array at the cost array of its arguments.
-/
import proofs.«421009_j25984552141569_1_alg».proof.Proof.Gen.KernelIdeal.Value
import proofs.«421009_j25984552141569_1_alg».proof.Proof.KernelPayload

noncomputable section

namespace Cert.KernelArray

open Cert.KernelIdeal Cert.KernelIdeal.Gen Cert.KernelIdeal.Value Cert.CostSpec
open Idealize.ShloMosaic Idealize.ShloMosaic.TcCoe Idealize.ShloMosaic.ValueIdx Idealize.SL.Sem

/-! ## The blocks' places in the arrays -/

/-- At grid point `t` every window's block is the `t`-th group of eight images, whole on its other two axes. -/
private theorem block_index : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

section Blocks

variable (m : (ℓ : Loc nD τ sig) → Buf (Elt Ideal) ℓ)

/-! ## The two arrays the host prepares, read at an index -/

/-- The labels as the region finds them: the reshape of the label argument. -/
private theorem labels_entry (c : Dev nD) :
    (V m c main_v0 : S512x1x200.Idx → BitVec 32)
      = shapeCast S512x1x200 (m ((c : Thread nD τ).loc main_arg2) : S512x200.Idx → BitVec 32) shapeCasts_S512x200_S512x1x200 := by
  dsimp only [Gen.V, Gen.hostOps0]; after_results; rfl

/-- The label of image `b`, target `t`, where the region finds it. -/
private theorem labels_at (c : Dev nD) (b : Fin 512) (t : Fin 200) :
    (V m c main_v0 : S512x1x200.Idx → BitVec 32) (ix3 b (0 : Fin 1) t)
      = (m ((c : Thread nD τ).loc main_arg2) : S512x200.Idx → BitVec 32) (ix2 b t) := by
  rw [labels_entry]
  refine shapeCast_apply _ _ _ _ ?_
  show (S512x200.rowMajor (ix2 b t)).val = (S512x1x200.rowMajor (ix3 b (0 : Fin 1) t)).val
  rw [Shape.rowMajor_val_two, Shape.rowMajor_val_three]
  show b.val * 200 + t.val = (b.val * 1 + 0) * 200 + t.val
  omega

/-- The target boxes as the region finds them: the argument with its last two axes exchanged. -/
private theorem boxes_entry (c : Dev nD) :
    (V m c main_v1 : S512x4x200.Idx → EReal)
      = transpose S512x4x200 [0, 2, 1] (m ((c : Thread nD τ).loc main_arg3) : S512x200x4.Idx → EReal)
          transposes_S512x200x4_S512x4x200_0_2_1 := by
  dsimp only [Gen.V, Gen.hostOps0]; after_results

/-- Coordinate `k` of the box of image `b`, target `t`, where the region finds it. -/
private theorem boxes_at (c : Dev nD) (b : Fin 512) (k : Fin 4) (t : Fin 200) :
    (V m c main_v1 : S512x4x200.Idx → EReal) (ix3 b k t)
      = (m ((c : Thread nD τ).loc main_arg3) : S512x200x4.Idx → EReal) (ix3 b t k) := by
  rw [boxes_entry]
  refine transpose_apply _ _ _ _ _ fun a => ?_
  match a with
  | ⟨0, _⟩ => rfl
  | ⟨1, _⟩ => rfl
  | ⟨2, _⟩ => rfl

/-! ## The windows' blocks as entries of the arguments -/

/-- An entry of the class-score block at point `t` is the argument's entry of image `8 t + bb`. -/
private theorem logits_block (c : Dev nD) (t : Fin cfg0.N) (bb : Fin 8) (q : Fin 300) (k : Fin 80) (b : Fin 512)
    (hb : b.val = 8 * t.val + bb.val) :
    (iblk m c 0 t : Vec Ideal S8x300x80 .f32) (ix3 bb q k)
      = (m ((c : Thread nD τ).loc main_arg0) : S512x300x80.Idx → EReal) (ix3 b q k) := by
  obtain ⟨⟨e0, e1, e2⟩, -⟩ := block_index t
  refine Eq.trans (b := (V m c main_arg0 : S512x300x80.Idx → EReal) (ix3 b q k)) ?_ (congrFun (V_main_arg0 m c) _)
  show V m c main_arg0 (((cfg0.win 0).blk t).view.emb (ix3 bb q k)) = V m c main_arg0 (ix3 b q k)
  refine congrArg _ (funext fun a => Fin.ext ?_)
  match a with
  | ⟨0, _⟩ => show win0_0.index t (0 : Fin 3) * 8 + 1 * bb.val = b.val; omega
  | ⟨1, _⟩ => show win0_0.index t (1 : Fin 3) * 300 + 1 * q.val = q.val; omega
  | ⟨2, _⟩ => show win0_0.index t (2 : Fin 3) * 80 + 1 * k.val = k.val; omega

/-- An entry of the query-box block at point `t` is the argument's entry of image `8 t + bb`. -/
private theorem qboxes_block (c : Dev nD) (t : Fin cfg0.N) (bb : Fin 8) (q : Fin 300) (k : Fin 4) (b : Fin 512)
    (hb : b.val = 8 * t.val + bb.val) :
    (iblk m c 1 t : Vec Ideal S8x300x4 .f32) (ix3 bb q k)
      = (m ((c : Thread nD τ).loc main_arg1) : S512x300x4.Idx → EReal) (ix3 b q k) := by
  obtain ⟨-, ⟨e0, e1, e2⟩, -⟩ := block_index t
  refine Eq.trans (b := (V m c main_arg1 : S512x300x4.Idx → EReal) (ix3 b q k)) ?_ (congrFun (V_main_arg1 m c) _)
  show V m c main_arg1 (((cfg0.win 1).blk t).view.emb (ix3 bb q k)) = V m c main_arg1 (ix3 b q k)
  refine congrArg _ (funext fun a => Fin.ext ?_)
  match a with
  | ⟨0, _⟩ => show win0_1.index t (0 : Fin 3) * 8 + 1 * bb.val = b.val; omega
  | ⟨1, _⟩ => show win0_1.index t (1 : Fin 3) * 300 + 1 * q.val = q.val; omega
  | ⟨2, _⟩ => show win0_1.index t (2 : Fin 3) * 4 + 1 * k.val = k.val; omega

/-- An entry of the label block at point `t` is the label argument's entry of image `8 t + bb`. -/
private theorem labels_block (c : Dev nD) (t : Fin cfg0.N) (bb : Fin 8) (tt : Fin 200) (b : Fin 512)
    (hb : b.val = 8 * t.val + bb.val) :
    (iblk m c 2 t : Vec Ideal S8x1x200 .i32) (ix3 bb (0 : Fin 1) tt)
      = (m ((c : Thread nD τ).loc main_arg2) : S512x200.Idx → BitVec 32) (ix2 b tt) := by
  obtain ⟨-, -, ⟨e0, e1, e2⟩, -⟩ := block_index t
  refine Eq.trans (b := (V m c main_v0 : S512x1x200.Idx → BitVec 32) (ix3 b (0 : Fin 1) tt)) ?_ (labels_at m c b tt)
  show V m c main_v0 (((cfg0.win 2).blk t).view.emb (ix3 bb (0 : Fin 1) tt)) = V m c main_v0 (ix3 b (0 : Fin 1) tt)
  refine congrArg _ (funext fun a => Fin.ext ?_)
  match a with
  | ⟨0, _⟩ => show win0_2.index t (0 : Fin 3) * 8 + 1 * bb.val = b.val; omega
  | ⟨1, _⟩ => show win0_2.index t (1 : Fin 3) * 1 + 1 * 0 = 0; omega
  | ⟨2, _⟩ => show win0_2.index t (2 : Fin 3) * 200 + 1 * tt.val = tt.val; omega

/-- An entry of the target-box block at point `t` is the target-box argument's entry of image `8 t + bb`,
    target and coordinate exchanged. -/
private theorem tboxes_block (c : Dev nD) (t : Fin cfg0.N) (bb : Fin 8) (k : Fin 4) (tt : Fin 200) (b : Fin 512)
    (hb : b.val = 8 * t.val + bb.val) :
    (iblk m c 3 t : Vec Ideal S8x4x200 .f32) (ix3 bb k tt)
      = (m ((c : Thread nD τ).loc main_arg3) : S512x200x4.Idx → EReal) (ix3 b tt k) := by
  obtain ⟨-, -, -, ⟨e0, e1, e2⟩, -⟩ := block_index t
  refine Eq.trans (b := (V m c main_v1 : S512x4x200.Idx → EReal) (ix3 b k tt)) ?_ (boxes_at m c b k tt)
  show V m c main_v1 (((cfg0.win 3).blk t).view.emb (ix3 bb k tt)) = V m c main_v1 (ix3 b k tt)
  refine congrArg _ (funext fun a => Fin.ext ?_)
  match a with
  | ⟨0, _⟩ => show win0_3.index t (0 : Fin 3) * 8 + 1 * bb.val = b.val; omega
  | ⟨1, _⟩ => show win0_3.index t (1 : Fin 3) * 4 + 1 * k.val = k.val; omega
  | ⟨2, _⟩ => show win0_3.index t (2 : Fin 3) * 200 + 1 * tt.val = tt.val; omega

/-- What the body leaves at an entry of its output block at point `t` is the cost array's entry of image `8 t + bb`. -/
private theorem cost_block (c : Dev nD) (t : Fin cfg0.N) (bb : Fin 8) (q : Fin 300) (tt : Fin 200) (b : Fin 512)
    (hb : b.val = 8 * t.val + bb.val) :
    out0_4 (F := Ideal) (iblk m c 0 t) (iblk m c 1 t) (iblk m c 2 t) (iblk m c 3 t) (ix3 bb q tt)
      = G (m ((c : Thread nD τ).loc main_arg0)) (m ((c : Thread nD τ).loc main_arg1)) (m ((c : Thread nD τ).loc main_arg2))
          (m ((c : Thread nD τ).loc main_arg3)) (ix3 b q tt) := by
  refine (Cert.KernelPayload.payload_at _ _ _ _ bb q tt).trans ?_
  refine Eq.trans ?_ (G_ix3 _ _ _ _ b q tt).symm
  have h0 : (fun k => (iblk m c 0 t : Vec Ideal S8x300x80 .f32) (ix3 bb q k))
      = fun k => (m ((c : Thread nD τ).loc main_arg0) : S512x300x80.Idx → EReal) (ix3 b q k) :=
    funext fun k => logits_block m c t bb q k b hb
  have h1 : (fun k => (iblk m c 1 t : Vec Ideal S8x300x4 .f32) (ix3 bb q k))
      = fun k => (m ((c : Thread nD τ).loc main_arg1) : S512x300x4.Idx → EReal) (ix3 b q k) :=
    funext fun k => qboxes_block m c t bb q k b hb
  have h3 : (fun k => (iblk m c 3 t : Vec Ideal S8x4x200 .f32) (ix3 bb k tt))
      = fun k => (m ((c : Thread nD τ).loc main_arg3) : S512x200x4.Idx → EReal) (ix3 b tt k) :=
    funext fun k => tboxes_block m c t bb k tt b hb
  exact congr (congr (congr (congrArg cost h0) (labels_block m c t bb tt b hb)) h1) h3

/-! ## From the blocks to the array -/

/-- What point `t` writes back is its block of the cost array of the arguments. -/
private theorem flushed_eq (c : Dev nD) (t : Fin cfg0.N) :
    (dats m 0 c).flushed 4 t = ((cfg0.win 4).blk t).view.read (Elt Ideal)
      (G (m ((c : Thread nD τ).loc main_arg0)) (m ((c : Thread nD τ).loc main_arg1)) (m ((c : Thread nD τ).loc main_arg2))
        (m ((c : Thread nD τ).loc main_arg3))) := by
  rw [Value.flushed4]
  obtain ⟨-, -, -, -, e0, e1, e2⟩ := block_index t
  have ht : t.val < 64 := lt_of_lt_of_eq t.isLt N_0
  have key : ∀ (bb : Fin 8) (q : Fin 300) (tt : Fin 200),
      out0_4 (F := Ideal) (iblk m c 0 t) (iblk m c 1 t) (iblk m c 2 t) (iblk m c 3 t) (ix3 bb q tt)
        = G (m ((c : Thread nD τ).loc main_arg0)) (m ((c : Thread nD τ).loc main_arg1)) (m ((c : Thread nD τ).loc main_arg2))
            (m ((c : Thread nD τ).loc main_arg3)) (((cfg0.win 4).blk t).view.emb (ix3 bb q tt)) := by
    intro bb q tt
    have hb : 8 * t.val + bb.val < 512 := by have := bb.isLt; omega
    refine (cost_block m c t bb q tt ⟨8 * t.val + bb.val, hb⟩ rfl).trans ?_
    refine congrArg _ (funext fun a => Fin.ext ?_)
    match a with
    | ⟨0, _⟩ => show 8 * t.val + bb.val = win0_4.index t (0 : Fin 3) * 8 + 1 * bb.val; omega
    | ⟨1, _⟩ => show q.val = win0_4.index t (1 : Fin 3) * 300 + 1 * q.val; omega
    | ⟨2, _⟩ => show tt.val = win0_4.index t (2 : Fin 3) * 200 + 1 * tt.val; omega
  refine funext fun (y : S8x300x200.Idx) => ?_
  obtain ⟨bb, q, tt, rfl⟩ : ∃ (bb : Fin 8) (q : Fin 300) (tt : Fin 200), y = ix3 bb q tt :=
    ⟨y 0, y 1, y 2, eq_ix3 y⟩
  exact key bb q tt

/-- An index of the result array is in point `t`'s block iff each coordinate is in the block's range on its axis. -/
private theorem mem_blk (t : Fin cfg0.N) (i : S512x300x200.Idx) :
    i ∈ ((cfg0.win 4).blk t).view.set ↔ ∀ a : Fin 3, win0_4.index t a * S8x300x200.size a ≤ (i a).val
      ∧ (i a).val < win0_4.index t a * S8x300x200.size a + S8x300x200.size a := by
  show i ∈ ((View.whole main_v2).slice (win0_4.rect t)).set ↔ _
  rw [View.set_slice_whole, Rect.mem_set_unit]
  exact Iff.rfl

/-- Every entry of the result array is in the block of the point of its image's group of eight. -/
private theorem cover (i : S512x300x200.Idx) :
    ∃ t : Fin cfg0.N, (cfg0.win 4).flush t = true ∧ i ∈ ((cfg0.win 4).blk t).view.set := by
  have h0 : (i 0).val < 512 := (i 0).isLt
  have h1 : (i 1).val < 300 := (i 1).isLt
  have h2 : (i 2).val < 200 := (i 2).isLt
  obtain ⟨t, ht⟩ : ∃ t : Fin cfg0.N, t.val = (i 0).val / 8 :=
    ⟨⟨(i 0).val / 8, lt_of_lt_of_eq (by omega : (i 0).val / 8 < 64) N_0.symm⟩, rfl⟩
  obtain ⟨-, -, -, -, e0, e1, e2⟩ := block_index t
  refine ⟨t, flush0_4 t, ?_⟩
  rw [mem_blk]
  intro a
  match a with
  | ⟨0, _⟩ => show win0_4.index t (0 : Fin 3) * 8 ≤ (i 0).val ∧ (i 0).val < win0_4.index t (0 : Fin 3) * 8 + 8; omega
  | ⟨1, _⟩ => show win0_4.index t (1 : Fin 3) * 300 ≤ (i 1).val ∧ (i 1).val < win0_4.index t (1 : Fin 3) * 300 + 300; omega
  | ⟨2, _⟩ => show win0_4.index t (2 : Fin 3) * 200 ≤ (i 2).val ∧ (i 2).val < win0_4.index t (2 : Fin 3) * 200 + 200; omega

/-- The result array after the run is the cost array of the arguments. -/
private theorem final (c : Dev nD) :
    (dats m 0 c).arrAt 4 cfg0.N
      = G (m ((c : Thread nD τ).loc main_arg0)) (m ((c : Thread nD τ).loc main_arg1)) (m ((c : Thread nD τ).loc main_arg2))
          (m ((c : Thread nD τ).loc main_arg3)) :=
  (dats m 0 c).arrAt_eq_of_cover 4 _ (fun t _ => flushed_eq m c t) cover

end Blocks

/-! ## The run -/

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2)
        = G (m ((c : Thread nD τ).loc main_arg0)) (m ((c : Thread nD τ).loc main_arg1)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelArray

end
-- ==== Proof.LabelRange.lean ====
/-
  The precondition's last conjunct, decoded: every label is a class number, `0 ≤ l < 80` signed, so below 80 unsigned.
-/
import proofs.«421009_j25984552141569_1_alg».proof.Pre_finite_inputs
import Idealize.ShloMosaic.Lib.ReduceAll
import Idealize.ShloMosaic.Lib.StableHlo.Predicate
import Idealize.ShloMosaic.Lib.ValueIdx

noncomputable section

namespace Cert.LabelRange

open Cert.Pre_finite_inputs Idealize.ShloMosaic

theorem lt_of_fn {F : FTy → Type} [FloatOps F] [Cert.Pre_finite_inputs.Facts] (a0 : FVec F S512x300x80 .f32) (a1 : FVec F S512x300x4 .f32)
    (a2 : IVec S512x200 32) (a3 : FVec F S512x200x4 .f32)
    (h : Cert.Pre_finite_inputs.fn (F := F) a0 a1 a2 a3 = fun _ => 1#1) (i : S512x200.Idx) : (a2 i).toNat < 80 := by
  -- the predicate is a conjunction of two bits: the three finiteness tests, and "every label passes both comparisons"
  have e := congrFun h ValueIdx.ix0
  dsimp only [Cert.Pre_finite_inputs.fn, Cert.Pre_finite_inputs.fn_part1] at e
  obtain ⟨-, hall⟩ := IntOp.andi_eq_one.1 e
  haveI : Subsingleton S_.Idx := ⟨fun a b => funext fun d => d.elim0⟩
  -- a conjunction over all labels that is one gives each label's two comparisons
  have hi := Host.reduce_andi_all _ _ _ _ _ hall i
  obtain ⟨hge, hlt⟩ := IntOp.andi_eq_one.1 hi
  -- a word in [0, 80) signed is below 80 unsigned
  have h0 : IntOp.cmpi .sge (a2 i) (0#32) = 1#1 := hge
  have h80 : IntOp.cmpi .slt (a2 i) (80#32) = 1#1 := hlt
  unfold IntOp.cmpi at h0 h80
  rw [StableHlo.Predicate.ofBool_eq_one_iff] at h0 h80
  simp only [BitVec.slt, BitVec.sle, decide_eq_true_eq] at h0 h80
  have h32 := (a2 i).isLt
  unfold BitVec.toInt at h0 h80
  split at h80 <;> simp at h0 h80 <;> omega

end Cert.LabelRange

end
-- ==== Proof.lean ====
/-
  The proof of `Cert.Claim`: the three frames, the (empty) idealization ledger, and the equivalence over the extended reals of the
  matching-cost kernel and its reference, for labels that are class numbers (`0 ≤ label < 80`).

  Both idealized programs end with the cost array `Cert.CostSpec.G` of the four argument arrays: entry `(b, q, t)` is
  `1 · (0 − P) + 5 · L1 + 2 · (0 − GIoU)` of query `q` and target `t` of image `b`, where `P` is the softmax
  probability of the target's label among the query's 80 class scores, `L1` the sum of the absolute differences of the
  two boxes' four coordinates, and `GIoU` their generalised intersection-over-union.
  * The kernel computes a block of 8 images per grid point; its body's result at a block element is the pair's cost
    (Proof/KernelPayload.lean), the 64 blocks tile the array (Proof/KernelArray.lean). Its class term contracts the
    probabilities against the label's indicator column.
  * The reference gathers the label's probability. For a label in range its index normalisation and range test change
    nothing, so the gathered entry is the contraction's one non-zero term (Proof/RefClass.lean, over the gather read at
    an element, Proof/LibTakeAlongLast.lean); its coordinate sum is the four-term chain regrouped (Proof/RefBBox.lean);
    its overlap term is the kernel's up to the order of the operands of a maximum (Proof/RefGiou.lean); a negation is
    `0 − ·` (Proof/RefCost.lean). No law used needs the inputs to be finite.
  * The labels' range is the precondition's last conjunct, decoded in Proof/LabelRange.lean.
-/
import proofs.«421009_j25984552141569_1_alg».proof.Defs
import proofs.«421009_j25984552141569_1_alg».proof.Proof.Gen.Kernel
import proofs.«421009_j25984552141569_1_alg».proof.Proof.Gen.Kernel.Frame
import proofs.«421009_j25984552141569_1_alg».proof.Proof.Gen.KernelIdeal
import proofs.«421009_j25984552141569_1_alg».proof.Proof.Gen.KernelIdeal.Frame
import proofs.«421009_j25984552141569_1_alg».proof.Proof.Gen.KernelIdeal.Value
import proofs.«421009_j25984552141569_1_alg».proof.Proof.Gen.ReferenceIdeal
import proofs.«421009_j25984552141569_1_alg».proof.Proof.Gen.Pre_finite_inputs
import proofs.«421009_j25984552141569_1_alg».proof.Proof.RefRun
import proofs.«421009_j25984552141569_1_alg».proof.Proof.RefRead
import proofs.«421009_j25984552141569_1_alg».proof.Proof.RefCost
import proofs.«421009_j25984552141569_1_alg».proof.Proof.KernelArray
import proofs.«421009_j25984552141569_1_alg».proof.Proof.LabelRange
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both runs end at the cost array of the (agreeing) arguments: the kernel's by its blocks, the reference's because every
    label is below 80. -/
theorem algebraic : Cert.algebraic_KernelIdeal_ReferenceIdeal := by
  intro m ρ m' ρ' hpre hagree
  refine ⟨_, Cert.KernelArray.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v181_eq, (hagree c).1, (hagree c).2.1, (hagree c).2.2.1, (hagree c).2.2.2]
  exact Cert.RefCost.ref_eq_G _ _ _ _ (fun i => Cert.LabelRange.lt_of_fn _ _ _ _ (hpre c) i)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
